-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x2 .f32) (main_arg7 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg6
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg7 main_v33

def fn {F : FTy → Type} [FloatOps F] (main_arg0 : FVec F S16384x128 .f32) (main_arg1 : FVec F S16384x16384 .f32) (main_arg2 : FVec F S128x128 .f32) (main_arg3 : FVec F S128 .f32) (main_arg4 : FVec F S128x128 .f32) (main_arg5 : FVec F S128 .f32) (main_arg6 : FVec F S128x2 .f32) (main_arg7 : FVec F S2 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x128 : Shape := ⟨2, ![1, 128]⟩
abbrev S2048x1024 : Shape := ⟨2, ![2048, 1024]⟩
abbrev S1024x128 : Shape := ⟨2, ![1024, 128]⟩
abbrev S2048x128 : Shape := ⟨2, ![2048, 128]⟩
abbrev S16384x2 : Shape := ⟨2, ![16384, 2]⟩
abbrev S1x2 : Shape := ⟨2, ![1, 2]⟩

abbrev nBuf : Space → Nat
  | .hbm => 16
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S1x128, .f32⟩
  | .hbm, ⟨9, _⟩ => ⟨S16384x128, .f32⟩
  | .hbm, ⟨10, _⟩ => ⟨S1x128, .f32⟩
  | .hbm, ⟨11, _⟩ => ⟨S16384x128, .f32⟩
  | .hbm, ⟨12, _⟩ => ⟨S16384x2, .f32⟩
  | .hbm, ⟨13, _⟩ => ⟨S1x2, .f32⟩
  | .hbm, ⟨14, _⟩ => ⟨S16384x2, .f32⟩
  | .hbm, ⟨15, _⟩ => ⟨S16384x2, .f32⟩
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S1024x128, .f32⟩
  | .local _ .vmem, ⟨4, _⟩ => ⟨S128x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x1024, .f32⟩
  | .local _ .vmem, ⟨10, _⟩ => ⟨S2048x1024, .f32⟩
  | .local _ .vmem, ⟨11, _⟩ => ⟨S1024x128, .f32⟩
  | .local _ .vmem, ⟨12, _⟩ => ⟨S1024x128, .f32⟩
  | .local _ .vmem, ⟨13, _⟩ => ⟨S128x128, .f32⟩
  | .local _ .vmem, ⟨14, _⟩ => ⟨S1x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_11 : BitVec 32 := 0#32
  let v20 : BitVec 1 := Scalar.cmpi .ne v19 c0_i32_11
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2048x1024_S2048x1024_0_0 : ∀ a, (![0, 0] : Fin 2 → Nat) a + S2048x1024.size a ≤ S2048x1024.size a
  h_S2048x1024 : 0 < S2048x1024.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  shapeCasts_S1024x128_S1024x128 : S1024x128.ShapeCasts S1024x128
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  dot_S1024x128_S128x128_S1024x128_1_0_0_1_n_n_wf : DotDims.WF S1024x128 S128x128 S1024x128 [1] [0] [0] [1] [] []
  dot_S2048x1024_S1024x128_S2048x128_1_0_0_1_n_n_wf : DotDims.WF S2048x1024 S1024x128 S2048x128 [1] [0] [0] [1] [] []
  dot_S16384x128_S128x2_S16384x2_1_0_0_1_n_n_wf : DotDims.WF S16384x128 S128x2 S16384x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x16384.size a
  hwx0_0 : ∀ i : grid0.Coords, EltTy.bits .f32 = 32 ∨ (Rect.block (s := S16384x16384) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S16384x128.size a
  hwx0_4 : ∀ i : grid0.Coords, EltTy.bits .f32 = 32 ∨ (Rect.block (s := S16384x128) S2048x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S16384x128.size a
  hwx1_1 : ∀ i : grid1.Coords, EltTy.bits .f32 = 32 ∨ (Rect.block (s := S16384x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x128.size a ≤ S16384x128.size a
  hwx1_4 : ∀ i : grid1.Coords, EltTy.bits .f32 = 32 ∨ (Rect.block (s := S16384x128) S2048x128.size (cc1_transform_4 i) (hinb1_4 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S16384x128_S128x2_S16384x2_1_0_0_1_n_n : DotDims S16384x128 S128x2 S16384x2 where
  lhsContracting := [1]
  rhsContracting := [0]
  lhsNonContracting := [0]
  rhsNonContracting := [1]
  lhsBatch := []
  rhsBatch := []
  wf := dot_S16384x128_S128x2_S16384x2_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S2048x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x128 : Shape := ⟨2, ![1, 128]⟩
abbrev S_ : Shape := ⟨0, ![]⟩
abbrev S16384x2 : Shape := ⟨2, ![16384, 2]⟩
abbrev S1x2 : Shape := ⟨2, ![1, 2]⟩

abbrev nBuf : Space → Nat
  | .hbm => 28
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S16384x128, .f32⟩
  | .hbm, ⟨9, _⟩ => ⟨S16384x128, .f32⟩
  | .hbm, ⟨10, _⟩ => ⟨S1x128, .f32⟩
  | .hbm, ⟨11, _⟩ => ⟨S16384x128, .f32⟩
  | .hbm, ⟨12, _⟩ => ⟨S16384x128, .f32⟩
  | .hbm, ⟨13, _⟩ => ⟨S_, .f32⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S1x128, .f32⟩
  | .hbm, ⟨19, _⟩ => ⟨S16384x128, .f32⟩
  | .hbm, ⟨20, _⟩ => ⟨S16384x128, .f32⟩
  | .hbm, ⟨21, _⟩ => ⟨S_, .f32⟩
  | .hbm, ⟨22, _⟩ => ⟨S16384x128, .f32⟩
  | .hbm, ⟨23, _⟩ => ⟨S16384x128, .f32⟩
  | .hbm, ⟨24, _⟩ => ⟨S16384x2, .f32⟩
  | .hbm, ⟨25, _⟩ => ⟨S1x2, .f32⟩
  | .hbm, ⟨26, _⟩ => ⟨S16384x2, .f32⟩
  | .hbm, ⟨27, _⟩ => ⟨S16384x2, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  dot_S16384x128_S128x128_S16384x128_1_0_0_1_n_n_wf : DotDims.WF S16384x128 S128x128 S16384x128 [1] [0] [0] [1] [] []
  dot_S16384x16384_S16384x128_S16384x128_1_0_0_1_n_n_wf : DotDims.WF S16384x16384 S16384x128 S16384x128 [1] [0] [0] [1] [] []
  dot_S16384x128_S128x2_S16384x2_1_0_0_1_n_n_wf : DotDims.WF S16384x128 S128x2 S16384x2 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x2_S16384x2_1_0_0_1_n_n : DotDims S16384x128 S128x2 S16384x2 where
  lhsContracting := [1]
  rhsContracting := [0]
  lhsNonContracting := [0]
  rhsNonContracting := [1]
  lhsBatch := []
  rhsBatch := []
  wf := dot_S16384x128_S128x2_S16384x2_1_0_0_1_n_n_wf

class Facts : Prop extends Facts₀ where

variable [Facts]
-- ==== Proof.Kernel.Step0.lean ====
import proofs.«160318_j35888746725725_1_alg».proof.Proof.Gen.Kernel.Launch
import proofs.«160318_j35888746725725_1_alg».proof.Proof.Gen.Kernel.Skeleton
import proofs.«160318_j35888746725725_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One grid step of an aggregate-and-project layer (pallas_call 0)

At grid point `(i, k)` the step reads the adjacency tile `A[i, k]`, the feature tile `X[k]`, the resident weight
`W` and the running sum kept in scratch, and leaves in scratch `acc + A[i,k] · (X[k] · W)`.  At `k = 0` the
running sum restarts from zero; at the last `k` the output tile receives `max (acc + b, 0)`.  Three cases: the
first `k`, a middle `k`, the last `k`. -/

/-- The step restarts the running sum: the contraction coordinate is `0`. -/
abbrev cond0_0 (i : grid0.Coords) : Prop := (Scalar.cmpi .ne (Scalar.extui (Scalar.cmpi .eq (BitVec.ofNat 32 (i 1).val) 0#32)) 0#32) = 1#1
/-- The step writes the output tile: the contraction coordinate is the last one. -/
abbrev cond0_1 (i : grid0.Coords) : Prop := k0_cond2 i = 1#1

/-- A whole-tile access starts at the origin. -/
theorem origin0 : (![0, 0] : Fin 2 → Nat) = fun _ => 0 := funext fun a => by fin_cases a <;> rfl

/-- The running sum after a step from the sum `a`, over the adjacency tile `x2`, the feature tile `x3` and the weight `x4`. -/
abbrev stepSum0 (x2 : Vec F S2048x1024 .f32) (x3 : Vec F S1024x128 .f32) (x4 : Vec F S128x128 .f32) (a : Vec F S2048x128 .f32) : Vec F S2048x128 .f32 :=
  k0_pay2 x3 x4 x2 a

/-- The output tile from the finished sum `a` and the bias row `x5`. -/
abbrev outTile0 (a : Vec F S2048x128 .f32) (x5 : Vec F S1x128 .f32) : Vec F S2048x128 .f32 := k0_pay3 a x5

set_option maxHeartbeats 1000000 in
/-- FIRST `k`: whatever the scratch held, it ends at one step from zero; the output tile is not touched. -/
theorem step0_first (c : Dev nD) (E : Set ℕ) (i : grid0.Coords) (arg2 : Memref sig .tc .vmem S2048x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
    (hc0 : cond0_0 i) (hc1 : ¬cond0_1 i)
    (x2 : Vec F S2048x1024 .f32) (x3 : Vec F S1024x128 .f32) (x4 : Vec F S128x128 .f32) (K : PUnit → sProp 𝕄) :
    iprop(owns (c : Thread nD τ) arg2 fullShare x2 ∗ owns (c : Thread nD τ) arg3 fullShare x3 ∗ owns (c : Thread nD τ) arg4 fullShare x4 ∗ (∃ a, owns (c : Thread nD τ) arg7 fullShare a)
        ∗ (iprop(owns (c : Thread nD τ) arg2 fullShare x2 ∗ owns (c : Thread nD τ) arg3 fullShare x3 ∗ owns (c : Thread nD τ) arg4 fullShare x4 ∗ owns (c : Thread nD τ) arg7 fullShare (stepSum0 x2 x3 x4 k0_pay1)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f2, %hf2, H2⟩, ⟨%f3, %hf3, H3⟩, ⟨%f4, %hf4, H4⟩, ⟨%a, %f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (fun y => ⟨_, List.mem_cons_self, View.mem_set_unit_zero origin0 inb_S2048x128_S2048x128_0_0 y⟩)]
  rw [View.canon_cons_unit_zero origin0]
  sl_unfold_words
  simp only [View.readAt_eq_ld, Memref.IsWhole.read_unread, View.ld_unit_zero (S := S1024x128) origin0, View.ld_unit_zero (S := S128x128) origin0, View.ld_unit_zero (S := S2048x1024) origin0, View.ld_unit_zero (S := S2048x128) origin0, View.readCov_unit_zero (S := S2048x128) _ origin0]

set_option maxHeartbeats 1000000 in
/-- A MIDDLE `k`: the scratch goes from the sum `a` to one step further; the output tile is not touched. -/
theorem step0_middle (c : Dev nD) (E : Set ℕ) (i : grid0.Coords) (arg2 : Memref sig .tc .vmem S2048x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
    (hc0 : ¬cond0_0 i) (hc1 : ¬cond0_1 i)
    (x2 : Vec F S2048x1024 .f32) (x3 : Vec F S1024x128 .f32) (x4 : Vec F S128x128 .f32) (a : Vec F S2048x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg7 fullShare a
        ∗ (iprop(owns (c : Thread nD τ) arg2 fullShare x2 ∗ owns (c : Thread nD τ) arg3 fullShare x3 ∗ owns (c : Thread nD τ) arg4 fullShare x4 ∗ owns (c : Thread nD τ) arg7 fullShare (stepSum0 x2 x3 x4 a)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f2, %hf2, H2⟩, ⟨%f3, %hf3, H3⟩, ⟨%f4, %hf4, H4⟩, ⟨%f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (fun y => ⟨_, List.mem_cons_self, View.mem_set_unit_zero origin0 inb_S2048x128_S2048x128_0_0 y⟩)]
  rw [View.canon_cons_unit_zero origin0]
  sl_unfold_words
  simp only [View.readAt_eq_ld, Memref.IsWhole.read_unread, View.ld_unit_zero (S := S1024x128) origin0, View.ld_unit_zero (S := S128x128) origin0, View.ld_unit_zero (S := S2048x1024) origin0, View.ld_unit_zero (S := S2048x128) origin0]

set_option maxHeartbeats 1000000 in
/-- THE LAST `k`: the scratch goes from `a` to the finished sum, and the output tile — whatever it held — receives
    the finished sum plus the bias row `x5`, clamped below at zero. -/
theorem step0_last (c : Dev nD) (E : Set ℕ) (i : grid0.Coords) (arg2 : Memref sig .tc .vmem S2048x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
    (hc0 : ¬cond0_0 i) (hc1 : cond0_1 i)
    (x2 : Vec F S2048x1024 .f32) (x3 : Vec F S1024x128 .f32) (x4 : Vec F S128x128 .f32) (x5 : Vec F S1x128 .f32) (a : Vec F S2048x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare a
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outTile0 (stepSum0 x2 x3 x4 a) x5) ∗ owns (c : Thread nD τ) arg7 fullShare (stepSum0 x2 x3 x4 a)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f2, %hf2, H2⟩, ⟨%f3, %hf3, H3⟩, ⟨%f4, %hf4, H4⟩, ⟨%f5, %hf5, H5⟩, ⟨%d6, %f6, %hf6, H6⟩, ⟨%f7, %hf7, H7⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_cons_self, View.mem_set_unit_zero origin0 inb_S2048x128_S2048x128_0_0 y⟩)]
    rw [View.canon_cons_unit_zero origin0]
    sl_unfold_words
    simp only [View.readAt_eq_ld, Memref.IsWhole.read_unread, View.ld_unit_zero (S := S1024x128) origin0, View.ld_unit_zero (S := S128x128) origin0, View.ld_unit_zero (S := S2048x1024) origin0, View.ld_unit_zero (S := S2048x128) origin0, View.ld_unit_zero (S := S1x128) origin0, View.readCov_unit_zero (S := S2048x128) _ origin0]
  iexists _; isplitr
  swap; · iexact H7
  ipureintro
  sl_unfold_words
  rw [View.read_writes_eq_canon _ _ _ (fun y => ⟨_, List.mem_cons_self, View.mem_set_unit_zero origin0 inb_S2048x128_S2048x128_0_0 y⟩)]
  rw [View.canon_cons_unit_zero origin0]
  simp only [View.readAt_eq_ld, Memref.IsWhole.read_unread, View.ld_unit_zero (S := S1024x128) origin0, View.ld_unit_zero (S := S128x128) origin0, View.ld_unit_zero (S := S2048x1024) origin0, View.ld_unit_zero (S := S2048x128) origin0]

end Cert.Kernel.Gen
end
-- ==== Proof.Kernel.Layer0.lean ====
import proofs.«160318_j35888746725725_1_alg».proof.Proof.Kernel.Step0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The grid of pallas_call 0: what the running sum and the output tile hold, point by point

The grid is 8 row tiles by 16 contraction tiles, walked with the contraction coordinate fastest: point `n` has
`k = n % 16`.  The running sum restarts at `k = 0` and the output tile is written, and sent back to its array, at
`k = 15`. -/

/-- The step restarts the sum exactly at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)
/-- The step writes the output tile exactly at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)
/-- Away from those points the output window is idle, -/
theorem idleAt0_4 : ∀ t : Fin cfg0.N, ¬ t.val % 16 = 15 → cfg0.idle 4 (grid0.coords t) = true :=
  (by decide +kernel : ∀ t : Fin grid0.N, ¬ t.val % 16 = 15 → cfg0.idle 4 (grid0.coords t) = true)
/-- and at them it is live. -/
theorem liveAt0_4 : ∀ t : Fin cfg0.N, t.val % 16 = 15 → cfg0.idle 4 (grid0.coords t) = false :=
  (by decide +kernel : ∀ t : Fin grid0.N, t.val % 16 = 15 → cfg0.idle 4 (grid0.coords t) = false)
theorem noFlush0_4 (t : Fin cfg0.N) (h : ¬ t.val % 16 = 15) : (cfg0.win 4).flush t = false := by
  cases hf : (cfg0.win 4).flush t
  · rfl
  · exact absurd ((flush0_4 t).mp hf) h

/-- The scratch operand that carries the running sum. -/
abbrev scM0 : Memref sig .tc .vmem S2048x128 .f32 := Memref.whole cc0_scratch0

section Region
-- the buffer contents the region is entered from
variable (V : (c : Dev nD) → (b : Ref sig .tc) → Buf (Elt F) ((c : Thread nD τ).loc b))

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile, the feature tile, the weight and the bias row at point `t`, at their literal types. -/
abbrev adjT0 (c : Dev nD) (t : Fin cfg0.N) : Vec F S2048x1024 .f32 := iblk0 V c 0 t
abbrev featT0 (c : Dev nD) (t : Fin cfg0.N) : Vec F S1024x128 .f32 := iblk0 V c 1 t
abbrev wT0 (c : Dev nD) (t : Fin cfg0.N) : Vec F S128x128 .f32 := iblk0 V c 2 t
abbrev bT0 (c : Dev nD) (t : Fin cfg0.N) : Vec F S1x128 .f32 := iblk0 V c 3 t

/-- THE RUNNING SUM after point `n`: one step from zero where the contraction restarts, else one step from the
    sum the point before left. -/
def sum0 (c : Dev nD) : (n : ℕ) → n < cfg0.N → Vec F S2048x128 .f32
  | 0, hn => stepSum0 (adjT0 V c ⟨0, hn⟩) (featT0 V c ⟨0, hn⟩) (wT0 V c ⟨0, hn⟩) k0_pay1
  | n + 1, hn =>
    if (n + 1) % 16 = 0 then stepSum0 (adjT0 V c ⟨n + 1, hn⟩) (featT0 V c ⟨n + 1, hn⟩) (wT0 V c ⟨n + 1, hn⟩) k0_pay1
    else stepSum0 (adjT0 V c ⟨n + 1, hn⟩) (featT0 V c ⟨n + 1, hn⟩) (wT0 V c ⟨n + 1, hn⟩) (sum0 c n (Nat.lt_of_succ_lt hn))

theorem sum0_first (c : Dev nD) (t : Fin cfg0.N) (h : t.val % 16 = 0) :
    sum0 V c t.val t.isLt = stepSum0 (adjT0 V c t) (featT0 V c t) (wT0 V c t) k0_pay1 := by
  obtain ⟨n, hn⟩ := t
  cases n with
  | zero => rfl
  | succ n => exact if_pos h

theorem sum0_next (c : Dev nD) (t : Fin cfg0.N) (h : ¬ t.val % 16 = 0) :
    sum0 V c t.val t.isLt = stepSum0 (adjT0 V c t) (featT0 V c t) (wT0 V c t)
      (sum0 V c (t.val - 1) (Nat.lt_of_le_of_lt (Nat.sub_le _ _) t.isLt)) := by
  obtain ⟨n, hn⟩ := t
  cases n with
  | zero => exact absurd (Nat.zero_mod _) h
  | succ n => exact if_neg h

/-- The output tile a point with `k = 15` writes. -/
def out0 (c : Dev nD) (t : Fin cfg0.N) : Vec F S2048x128 .f32 := outTile0 (sum0 V c t.val t.isLt) (bT0 V c t)

/-- The scoped buffers the region does not use, each at anything. -/
def idleBufs0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's invariant before point `t`: the scratch at the running sum the point before left (at anything
    before the first point), the unused scoped buffers, the generator register at some state. -/
def Phi0 (c : Dev nD) (t : Fin (cfg0.N + 1)) : sProp 𝕄 :=
  iprop((∃ X, ⌜∀ h : t.val ≠ 0, X = sum0 V c (t.val - 1) (by have := t.isLt; omega)⌝ ∗ owns (c : Thread nD τ) scM0 fullShare X)
    ∗ idleBufs0 (F := F) c ∗ (∃ r, prngReg c r))

/-- The class invariant (every scoped buffer the pipeline does not stage at anything, the generator register) with
    the scratch singled out. -/
theorem PhiA0_eq (c : Dev nD) :
    (Pipeline.ΦA spec0 c : sProp 𝕄)
      = iprop(((∃ d, owns (c : Thread nD τ) scM0 fullShare d) ∗ idleBufs0 (F := F) c) ∗ (∃ r, prngReg c r)) := by
  unfold Pipeline.ΦA idleBufs0
  rw [Pipeline.scopedRest_eq_of_list spec0 c [cc0_scratch0, cc1_stg0_0, cc1_stg0_1, cc1_stg1_0, cc1_stg1_1, cc1_stg2_0, cc1_stg3_0, cc1_stg4_0, cc1_stg4_1, cc1_scratch0] (by decide) (by decide)]
  simp only [scM0, owns_whole, List.map_cons, List.map_nil]; try rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := Phi0 V c t
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

/-- Each input's current staging buffer holds its tile at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

end Region

end Cert.Kernel.Gen
end
-- ==== Proof.Kernel.Oblig0.lean ====
import proofs.«160318_j35888746725725_1_alg».proof.Proof.Kernel.Layer0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body obligation of pallas_call 0

At every grid point the pipeline hands the body its five current staging buffers — the four inputs at their tiles,
the output at whatever it holds — and the invariant; the body returns the inputs as they were, the scratch one
step further, and, at the points with `k = 15`, the output buffer at the finished tile. -/

section Region
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_in (c : Dev nD) (t : Fin cfg0.N) (w : Fin cfg0.W) (hw : cfg0.idle w (grid0.coords t) = false) :
    (dat0 V c).leavesExact w t = owns (c : Thread nD τ) ((cfg0.win w).stage (cfg0.slots t w)) fullShare ((dat0 V c).after w t) := by
  unfold Dat.leavesExact; rw [hw]

theorem Phi0_succ (c : Dev nD) (t : Fin cfg0.N) :
    (dat0 V c).Φ t.succ = iprop((∃ X, ⌜X = sum0 V c t.val t.isLt⌝ ∗ owns (c : Thread nD τ) scM0 fullShare X)
      ∗ idleBufs0 (F := F) c ∗ (∃ r, prngReg c r)) := by
  show Phi0 V c t.succ = _
  unfold Phi0
  congr 2
  funext X
  congr 2
  exact propext ⟨fun h => h (Nat.succ_ne_zero _), fun h _ => h⟩

set_option maxHeartbeats 4000000 in
/-- The body at any point, by the three cases of the contraction coordinate. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [Phi0_succ]
  rw [leaves0_in V c t 0 rfl, leaves0_in V c t 1 rfl, leaves0_in V c t 2 rfl, leaves0_in V c t 3 rfl,
    after0_0, after0_1, after0_2, after0_3]
  rw [show (dat0 V c).Φ t.castSucc = Phi0 V c t.castSucc from rfl]
  unfold Phi0
  by_cases h0 : t.val % 16 = 0
  · -- the first contraction tile: the sum restarts
    have h1 : ¬ t.val % 16 = 15 := by omega
    rw [Dat.leavesExact_idle (dat0 V c) 4 t (idleAt0_4 t h1) (noFlush0_4 t h1)]
    rw [sum0_first V c t h0]
    iintro ⟨⟨⟨%X, -, HS⟩, Hi, Hg⟩, Ho, ⟨%d0, H0⟩, ⟨%d1, H1⟩, ⟨%d2, H2⟩, ⟨%d3, H3⟩, H4⟩
    iapply (step0_first c Set.univ (grid0.coords t) _ _ _ _ _ _ _ _ _ _ _ _ ((hcond0_0 t).mpr h0) (fun h => h1 ((hcond0_1 t).mp h)) (adjT0 V c t) (featT0 V c t) (wT0 V c t) _)
    isplitl [H0]; · iexact H0
    isplitl [H1]; · iexact H1
    isplitl [H2]; · iexact H2
    isplitl [HS]; · iexists _; iexact HS
    iintro ⟨H0, H1, H2, HS⟩
    isplitl [HS Hi Hg]
    · isplitl [HS]
      · iexists _; isplitr; · ipureintro; rfl
        iexact HS
      isplitl [Hi]; · iexact Hi
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [sum0_next V c t h0]
    by_cases h1 : t.val % 16 = 15
    · -- the last contraction tile: the output tile is written
      rw [leaves0_in V c t 4 (liveAt0_4 t h1), after0_4]
      unfold out0
      rw [sum0_next V c t h0]
      iintro ⟨⟨⟨%X, %hX, HS⟩, Hi, Hg⟩, Ho, ⟨%d0, H0⟩, ⟨%d1, H1⟩, ⟨%d2, H2⟩, ⟨%d3, H3⟩, ⟨%d4, H4⟩⟩
      obtain rfl := hX hz
      iapply (step0_last c Set.univ (grid0.coords t) _ _ _ _ _ _ _ _ _ _ _ _ (fun h => h0 ((hcond0_0 t).mp h)) ((hcond0_1 t).mpr h1) (adjT0 V c t) (featT0 V c t) (wT0 V c t) (bT0 V c t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hi Hg]
      · isplitl [HS]
        · iexists _; isplitr; · ipureintro; rfl
          iexact HS
        isplitl [Hi]; · iexact Hi
        iexact Hg
      isplitl [Ho]; · iexact Ho
      isplitl [H0]; · iexact H0
      isplitl [H1]; · iexact H1
      isplitl [H2]; · iexact H2
      isplitl [H3]; · iexact H3
      iexact H4
    · -- a middle contraction tile
      rw [Dat.leavesExact_idle (dat0 V c) 4 t (idleAt0_4 t h1) (noFlush0_4 t h1)]
      iintro ⟨⟨⟨%X, %hX, HS⟩, Hi, Hg⟩, Ho, ⟨%d0, H0⟩, ⟨%d1, H1⟩, ⟨%d2, H2⟩, ⟨%d3, H3⟩, H4⟩
      obtain rfl := hX hz
      iapply (step0_middle c Set.univ (grid0.coords t) _ _ _ _ _ _ _ _ _ _ _ _ (fun h => h0 ((hcond0_0 t).mp h)) (fun h => h1 ((hcond0_1 t).mp h)) (adjT0 V c t) (featT0 V c t) (wT0 V c t) _ _)
      isplitl [H0]; · iexact H0
      isplitl [H1]; · iexact H1
      isplitl [H2]; · iexact H2
      isplitl [HS]; · iexact HS
      iintro ⟨H0, H1, H2, HS⟩
      isplitl [HS Hi Hg]
      · isplitl [HS]
        · iexists _; isplitr; · ipureintro; rfl
          iexact HS
        isplitl [Hi]; · iexact Hi
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 from rfl, PhiA0_eq]
  unfold Phi0
  iintro ⟨⟨⟨%d, HS⟩, Hi⟩, Hg⟩
  isplitl [HS]
  · iexists d; isplitr; · ipureintro; exact fun h => absurd rfl h
    iexact HS
  isplitl [Hi]; · iexact Hi
  iexact Hg

/-- After the last point the invariant gives the class's back: what the scratch holds is forgotten. -/
theorem hout0 (c : Dev nD) : (dat0 V c).Φ (Fin.last cfg0.N) ⊢ Pipeline.ΦA spec0 c := by
  rw [show (dat0 V c).Φ (Fin.last cfg0.N) = Phi0 V c (Fin.last cfg0.N) from rfl, PhiA0_eq]
  unfold Phi0
  iintro ⟨⟨%X, -, HS⟩, Hi, Hg⟩
  isplitl [HS Hi]
  · isplitl [HS]; · iexists X; iexact HS
    iexact Hi
  iexact Hg

end Region

end Cert.Kernel.Gen
end
-- ==== Proof.Kernel.Step1.lean ====
import proofs.«160318_j35888746725725_1_alg».proof.Proof.Gen.Kernel.Launch
import proofs.«160318_j35888746725725_1_alg».proof.Proof.Gen.Kernel.Skeleton
import proofs.«160318_j35888746725725_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One grid step of an aggregate-and-project layer (pallas_call 1)

At grid point `(i, k)` the step reads the adjacency tile `A[i, k]`, the feature tile `X[k]`, the resident weight
`W` and the running sum kept in scratch, and leaves in scratch `acc + A[i,k] · (X[k] · W)`.  At `k = 0` the
running sum restarts from zero; at the last `k` the output tile receives `max (acc + b, 0)`.  Three cases: the
first `k`, a middle `k`, the last `k`. -/

/-- The step restarts the running sum: the contraction coordinate is `0`. -/
abbrev cond1_0 (i : grid1.Coords) : Prop := (Scalar.cmpi .ne (Scalar.extui (Scalar.cmpi .eq (BitVec.ofNat 32 (i 1).val) 0#32)) 0#32) = 1#1
/-- The step writes the output tile: the contraction coordinate is the last one. -/
abbrev cond1_1 (i : grid1.Coords) : Prop := k1_cond2 i = 1#1

/-- A whole-tile access starts at the origin. -/
theorem origin1 : (![0, 0] : Fin 2 → Nat) = fun _ => 0 := funext fun a => by fin_cases a <;> rfl

/-- The running sum after a step from the sum `a`, over the adjacency tile `x2`, the feature tile `x3` and the weight `x4`. -/
abbrev stepSum1 (x2 : Vec F S2048x1024 .f32) (x3 : Vec F S1024x128 .f32) (x4 : Vec F S128x128 .f32) (a : Vec F S2048x128 .f32) : Vec F S2048x128 .f32 :=
  k1_pay2 x3 x4 x2 a

/-- The output tile from the finished sum `a` and the bias row `x5`. -/
abbrev outTile1 (a : Vec F S2048x128 .f32) (x5 : Vec F S1x128 .f32) : Vec F S2048x128 .f32 := k1_pay3 a x5

set_option maxHeartbeats 1000000 in
/-- FIRST `k`: whatever the scratch held, it ends at one step from zero; the output tile is not touched. -/
theorem step1_first (c : Dev nD) (E : Set ℕ) (i : grid1.Coords) (arg2 : Memref sig .tc .vmem S2048x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
    (hc0 : cond1_0 i) (hc1 : ¬cond1_1 i)
    (x2 : Vec F S2048x1024 .f32) (x3 : Vec F S1024x128 .f32) (x4 : Vec F S128x128 .f32) (K : PUnit → sProp 𝕄) :
    iprop(owns (c : Thread nD τ) arg2 fullShare x2 ∗ owns (c : Thread nD τ) arg3 fullShare x3 ∗ owns (c : Thread nD τ) arg4 fullShare x4 ∗ (∃ a, owns (c : Thread nD τ) arg7 fullShare a)
        ∗ (iprop(owns (c : Thread nD τ) arg2 fullShare x2 ∗ owns (c : Thread nD τ) arg3 fullShare x3 ∗ owns (c : Thread nD τ) arg4 fullShare x4 ∗ owns (c : Thread nD τ) arg7 fullShare (stepSum1 x2 x3 x4 k1_pay1)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f2, %hf2, H2⟩, ⟨%f3, %hf3, H3⟩, ⟨%f4, %hf4, H4⟩, ⟨%a, %f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (fun y => ⟨_, List.mem_cons_self, View.mem_set_unit_zero origin1 inb_S2048x128_S2048x128_0_0 y⟩)]
  rw [View.canon_cons_unit_zero origin1]
  sl_unfold_words
  simp only [View.readAt_eq_ld, Memref.IsWhole.read_unread, View.ld_unit_zero (S := S1024x128) origin1, View.ld_unit_zero (S := S128x128) origin1, View.ld_unit_zero (S := S2048x1024) origin1, View.ld_unit_zero (S := S2048x128) origin1, View.readCov_unit_zero (S := S2048x128) _ origin1]

set_option maxHeartbeats 1000000 in
/-- A MIDDLE `k`: the scratch goes from the sum `a` to one step further; the output tile is not touched. -/
theorem step1_middle (c : Dev nD) (E : Set ℕ) (i : grid1.Coords) (arg2 : Memref sig .tc .vmem S2048x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
    (hc0 : ¬cond1_0 i) (hc1 : ¬cond1_1 i)
    (x2 : Vec F S2048x1024 .f32) (x3 : Vec F S1024x128 .f32) (x4 : Vec F S128x128 .f32) (a : Vec F S2048x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg7 fullShare a
        ∗ (iprop(owns (c : Thread nD τ) arg2 fullShare x2 ∗ owns (c : Thread nD τ) arg3 fullShare x3 ∗ owns (c : Thread nD τ) arg4 fullShare x4 ∗ owns (c : Thread nD τ) arg7 fullShare (stepSum1 x2 x3 x4 a)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f2, %hf2, H2⟩, ⟨%f3, %hf3, H3⟩, ⟨%f4, %hf4, H4⟩, ⟨%f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (fun y => ⟨_, List.mem_cons_self, View.mem_set_unit_zero origin1 inb_S2048x128_S2048x128_0_0 y⟩)]
  rw [View.canon_cons_unit_zero origin1]
  sl_unfold_words
  simp only [View.readAt_eq_ld, Memref.IsWhole.read_unread, View.ld_unit_zero (S := S1024x128) origin1, View.ld_unit_zero (S := S128x128) origin1, View.ld_unit_zero (S := S2048x1024) origin1, View.ld_unit_zero (S := S2048x128) origin1]

set_option maxHeartbeats 1000000 in
/-- THE LAST `k`: the scratch goes from `a` to the finished sum, and the output tile — whatever it held — receives
    the finished sum plus the bias row `x5`, clamped below at zero. -/
theorem step1_last (c : Dev nD) (E : Set ℕ) (i : grid1.Coords) (arg2 : Memref sig .tc .vmem S2048x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
    (hc0 : ¬cond1_0 i) (hc1 : cond1_1 i)
    (x2 : Vec F S2048x1024 .f32) (x3 : Vec F S1024x128 .f32) (x4 : Vec F S128x128 .f32) (x5 : Vec F S1x128 .f32) (a : Vec F S2048x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare a
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outTile1 (stepSum1 x2 x3 x4 a) x5) ∗ owns (c : Thread nD τ) arg7 fullShare (stepSum1 x2 x3 x4 a)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f2, %hf2, H2⟩, ⟨%f3, %hf3, H3⟩, ⟨%f4, %hf4, H4⟩, ⟨%f5, %hf5, H5⟩, ⟨%d6, %f6, %hf6, H6⟩, ⟨%f7, %hf7, H7⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_cons_self, View.mem_set_unit_zero origin1 inb_S2048x128_S2048x128_0_0 y⟩)]
    rw [View.canon_cons_unit_zero origin1]
    sl_unfold_words
    simp only [View.readAt_eq_ld, Memref.IsWhole.read_unread, View.ld_unit_zero (S := S1024x128) origin1, View.ld_unit_zero (S := S128x128) origin1, View.ld_unit_zero (S := S2048x1024) origin1, View.ld_unit_zero (S := S2048x128) origin1, View.ld_unit_zero (S := S1x128) origin1, View.readCov_unit_zero (S := S2048x128) _ origin1]
  iexists _; isplitr
  swap; · iexact H7
  ipureintro
  sl_unfold_words
  rw [View.read_writes_eq_canon _ _ _ (fun y => ⟨_, List.mem_cons_self, View.mem_set_unit_zero origin1 inb_S2048x128_S2048x128_0_0 y⟩)]
  rw [View.canon_cons_unit_zero origin1]
  simp only [View.readAt_eq_ld, Memref.IsWhole.read_unread, View.ld_unit_zero (S := S1024x128) origin1, View.ld_unit_zero (S := S128x128) origin1, View.ld_unit_zero (S := S2048x1024) origin1, View.ld_unit_zero (S := S2048x128) origin1]

end Cert.Kernel.Gen
end
-- ==== Proof.Kernel.Layer1.lean ====
import proofs.«160318_j35888746725725_1_alg».proof.Proof.Kernel.Step1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The grid of pallas_call 1: what the running sum and the output tile hold, point by point

The grid is 8 row tiles by 16 contraction tiles, walked with the contraction coordinate fastest: point `n` has
`k = n % 16`.  The running sum restarts at `k = 0` and the output tile is written, and sent back to its array, at
`k = 15`. -/

/-- The step restarts the sum exactly at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
/-- The step writes the output tile exactly at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)
/-- Away from those points the output window is idle, -/
theorem idleAt1_4 : ∀ t : Fin cfg1.N, ¬ t.val % 16 = 15 → cfg1.idle 4 (grid1.coords t) = true :=
  (by decide +kernel : ∀ t : Fin grid1.N, ¬ t.val % 16 = 15 → cfg1.idle 4 (grid1.coords t) = true)
/-- and at them it is live. -/
theorem liveAt1_4 : ∀ t : Fin cfg1.N, t.val % 16 = 15 → cfg1.idle 4 (grid1.coords t) = false :=
  (by decide +kernel : ∀ t : Fin grid1.N, t.val % 16 = 15 → cfg1.idle 4 (grid1.coords t) = false)
theorem noFlush1_4 (t : Fin cfg1.N) (h : ¬ t.val % 16 = 15) : (cfg1.win 4).flush t = false := by
  cases hf : (cfg1.win 4).flush t
  · rfl
  · exact absurd ((flush1_4 t).mp hf) h

/-- The scratch operand that carries the running sum. -/
abbrev scM1 : Memref sig .tc .vmem S2048x128 .f32 := Memref.whole cc1_scratch0

section Region
-- the buffer contents the region is entered from
variable (V : (c : Dev nD) → (b : Ref sig .tc) → Buf (Elt F) ((c : Thread nD τ).loc b))

/-- Window `w`'s tile at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile, the feature tile, the weight and the bias row at point `t`, at their literal types. -/
abbrev adjT1 (c : Dev nD) (t : Fin cfg1.N) : Vec F S2048x1024 .f32 := iblk1 V c 0 t
abbrev featT1 (c : Dev nD) (t : Fin cfg1.N) : Vec F S1024x128 .f32 := iblk1 V c 1 t
abbrev wT1 (c : Dev nD) (t : Fin cfg1.N) : Vec F S128x128 .f32 := iblk1 V c 2 t
abbrev bT1 (c : Dev nD) (t : Fin cfg1.N) : Vec F S1x128 .f32 := iblk1 V c 3 t

/-- THE RUNNING SUM after point `n`: one step from zero where the contraction restarts, else one step from the
    sum the point before left. -/
def sum1 (c : Dev nD) : (n : ℕ) → n < cfg1.N → Vec F S2048x128 .f32
  | 0, hn => stepSum1 (adjT1 V c ⟨0, hn⟩) (featT1 V c ⟨0, hn⟩) (wT1 V c ⟨0, hn⟩) k1_pay1
  | n + 1, hn =>
    if (n + 1) % 16 = 0 then stepSum1 (adjT1 V c ⟨n + 1, hn⟩) (featT1 V c ⟨n + 1, hn⟩) (wT1 V c ⟨n + 1, hn⟩) k1_pay1
    else stepSum1 (adjT1 V c ⟨n + 1, hn⟩) (featT1 V c ⟨n + 1, hn⟩) (wT1 V c ⟨n + 1, hn⟩) (sum1 c n (Nat.lt_of_succ_lt hn))

theorem sum1_first (c : Dev nD) (t : Fin cfg1.N) (h : t.val % 16 = 0) :
    sum1 V c t.val t.isLt = stepSum1 (adjT1 V c t) (featT1 V c t) (wT1 V c t) k1_pay1 := by
  obtain ⟨n, hn⟩ := t
  cases n with
  | zero => rfl
  | succ n => exact if_pos h

theorem sum1_next (c : Dev nD) (t : Fin cfg1.N) (h : ¬ t.val % 16 = 0) :
    sum1 V c t.val t.isLt = stepSum1 (adjT1 V c t) (featT1 V c t) (wT1 V c t)
      (sum1 V c (t.val - 1) (Nat.lt_of_le_of_lt (Nat.sub_le _ _) t.isLt)) := by
  obtain ⟨n, hn⟩ := t
  cases n with
  | zero => exact absurd (Nat.zero_mod _) h
  | succ n => exact if_neg h

/-- The output tile a point with `k = 15` writes. -/
def out1 (c : Dev nD) (t : Fin cfg1.N) : Vec F S2048x128 .f32 := outTile1 (sum1 V c t.val t.isLt) (bT1 V c t)

/-- The scoped buffers the region does not use, each at anything. -/
def idleBufs1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The region's invariant before point `t`: the scratch at the running sum the point before left (at anything
    before the first point), the unused scoped buffers, the generator register at some state. -/
def Phi1 (c : Dev nD) (t : Fin (cfg1.N + 1)) : sProp 𝕄 :=
  iprop((∃ X, ⌜∀ h : t.val ≠ 0, X = sum1 V c (t.val - 1) (by have := t.isLt; omega)⌝ ∗ owns (c : Thread nD τ) scM1 fullShare X)
    ∗ idleBufs1 (F := F) c ∗ (∃ r, prngReg c r))

/-- The class invariant (every scoped buffer the pipeline does not stage at anything, the generator register) with
    the scratch singled out. -/
theorem PhiA1_eq (c : Dev nD) :
    (Pipeline.ΦA spec1 c : sProp 𝕄)
      = iprop(((∃ d, owns (c : Thread nD τ) scM1 fullShare d) ∗ idleBufs1 (F := F) c) ∗ (∃ r, prngReg c r)) := by
  unfold Pipeline.ΦA idleBufs1
  rw [Pipeline.scopedRest_eq_of_list spec1 c [cc1_scratch0, cc0_stg0_0, cc0_stg0_1, cc0_stg1_0, cc0_stg1_1, cc0_stg2_0, cc0_stg3_0, cc0_stg4_0, cc0_stg4_1, cc0_scratch0] (by decide) (by decide)]
  simp only [scM1, owns_whole, List.map_cons, List.map_nil]; try rfl

/-- The proof data of pipeline 0 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := Phi1 V c t
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

/-- Each input's current staging buffer holds its tile at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

end Region

end Cert.Kernel.Gen
end
-- ==== Proof.Kernel.Oblig1.lean ====
import proofs.«160318_j35888746725725_1_alg».proof.Proof.Kernel.Layer1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body obligation of pallas_call 1

At every grid point the pipeline hands the body its five current staging buffers — the four inputs at their tiles,
the output at whatever it holds — and the invariant; the body returns the inputs as they were, the scratch one
step further, and, at the points with `k = 15`, the output buffer at the finished tile. -/

section Region
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_in (c : Dev nD) (t : Fin cfg1.N) (w : Fin cfg1.W) (hw : cfg1.idle w (grid1.coords t) = false) :
    (dat1 V c).leavesExact w t = owns (c : Thread nD τ) ((cfg1.win w).stage (cfg1.slots t w)) fullShare ((dat1 V c).after w t) := by
  unfold Dat.leavesExact; rw [hw]

theorem Phi1_succ (c : Dev nD) (t : Fin cfg1.N) :
    (dat1 V c).Φ t.succ = iprop((∃ X, ⌜X = sum1 V c t.val t.isLt⌝ ∗ owns (c : Thread nD τ) scM1 fullShare X)
      ∗ idleBufs1 (F := F) c ∗ (∃ r, prngReg c r)) := by
  show Phi1 V c t.succ = _
  unfold Phi1
  congr 2
  funext X
  congr 2
  exact propext ⟨fun h => h (Nat.succ_ne_zero _), fun h _ => h⟩

set_option maxHeartbeats 4000000 in
/-- The body at any point, by the three cases of the contraction coordinate. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [Phi1_succ]
  rw [leaves1_in V c t 0 rfl, leaves1_in V c t 1 rfl, leaves1_in V c t 2 rfl, leaves1_in V c t 3 rfl,
    after1_0, after1_1, after1_2, after1_3]
  rw [show (dat1 V c).Φ t.castSucc = Phi1 V c t.castSucc from rfl]
  unfold Phi1
  by_cases h0 : t.val % 16 = 0
  · -- the first contraction tile: the sum restarts
    have h1 : ¬ t.val % 16 = 15 := by omega
    rw [Dat.leavesExact_idle (dat1 V c) 4 t (idleAt1_4 t h1) (noFlush1_4 t h1)]
    rw [sum1_first V c t h0]
    iintro ⟨⟨⟨%X, -, HS⟩, Hi, Hg⟩, Ho, ⟨%d0, H0⟩, ⟨%d1, H1⟩, ⟨%d2, H2⟩, ⟨%d3, H3⟩, H4⟩
    iapply (step1_first c Set.univ (grid1.coords t) _ _ _ _ _ _ _ _ _ _ _ _ ((hcond1_0 t).mpr h0) (fun h => h1 ((hcond1_1 t).mp h)) (adjT1 V c t) (featT1 V c t) (wT1 V c t) _)
    isplitl [H0]; · iexact H0
    isplitl [H1]; · iexact H1
    isplitl [H2]; · iexact H2
    isplitl [HS]; · iexists _; iexact HS
    iintro ⟨H0, H1, H2, HS⟩
    isplitl [HS Hi Hg]
    · isplitl [HS]
      · iexists _; isplitr; · ipureintro; rfl
        iexact HS
      isplitl [Hi]; · iexact Hi
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [sum1_next V c t h0]
    by_cases h1 : t.val % 16 = 15
    · -- the last contraction tile: the output tile is written
      rw [leaves1_in V c t 4 (liveAt1_4 t h1), after1_4]
      unfold out1
      rw [sum1_next V c t h0]
      iintro ⟨⟨⟨%X, %hX, HS⟩, Hi, Hg⟩, Ho, ⟨%d0, H0⟩, ⟨%d1, H1⟩, ⟨%d2, H2⟩, ⟨%d3, H3⟩, ⟨%d4, H4⟩⟩
      obtain rfl := hX hz
      iapply (step1_last c Set.univ (grid1.coords t) _ _ _ _ _ _ _ _ _ _ _ _ (fun h => h0 ((hcond1_0 t).mp h)) ((hcond1_1 t).mpr h1) (adjT1 V c t) (featT1 V c t) (wT1 V c t) (bT1 V c t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hi Hg]
      · isplitl [HS]
        · iexists _; isplitr; · ipureintro; rfl
          iexact HS
        isplitl [Hi]; · iexact Hi
        iexact Hg
      isplitl [Ho]; · iexact Ho
      isplitl [H0]; · iexact H0
      isplitl [H1]; · iexact H1
      isplitl [H2]; · iexact H2
      isplitl [H3]; · iexact H3
      iexact H4
    · -- a middle contraction tile
      rw [Dat.leavesExact_idle (dat1 V c) 4 t (idleAt1_4 t h1) (noFlush1_4 t h1)]
      iintro ⟨⟨⟨%X, %hX, HS⟩, Hi, Hg⟩, Ho, ⟨%d0, H0⟩, ⟨%d1, H1⟩, ⟨%d2, H2⟩, ⟨%d3, H3⟩, H4⟩
      obtain rfl := hX hz
      iapply (step1_middle c Set.univ (grid1.coords t) _ _ _ _ _ _ _ _ _ _ _ _ (fun h => h0 ((hcond1_0 t).mp h)) (fun h => h1 ((hcond1_1 t).mp h)) (adjT1 V c t) (featT1 V c t) (wT1 V c t) _ _)
      isplitl [H0]; · iexact H0
      isplitl [H1]; · iexact H1
      isplitl [H2]; · iexact H2
      isplitl [HS]; · iexact HS
      iintro ⟨H0, H1, H2, HS⟩
      isplitl [HS Hi Hg]
      · isplitl [HS]
        · iexists _; isplitr; · ipureintro; rfl
          iexact HS
        isplitl [Hi]; · iexact Hi
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 from rfl, PhiA1_eq]
  unfold Phi1
  iintro ⟨⟨⟨%d, HS⟩, Hi⟩, Hg⟩
  isplitl [HS]
  · iexists d; isplitr; · ipureintro; exact fun h => absurd rfl h
    iexact HS
  isplitl [Hi]; · iexact Hi
  iexact Hg

/-- After the last point the invariant gives the class's back: what the scratch holds is forgotten. -/
theorem hout1 (c : Dev nD) : (dat1 V c).Φ (Fin.last cfg1.N) ⊢ Pipeline.ΦA spec1 c := by
  rw [show (dat1 V c).Φ (Fin.last cfg1.N) = Phi1 V c (Fin.last cfg1.N) from rfl, PhiA1_eq]
  unfold Phi1
  iintro ⟨⟨%X, -, HS⟩, Hi, Hg⟩
  isplitl [HS Hi]
  · isplitl [HS]; · iexists X; iexact HS
    iexact Hi
  iexact Hg

end Region

end Cert.Kernel.Gen
end
-- ==== Proof.Kernel.Run.lean ====
import proofs.«160318_j35888746725725_1_alg».proof.Proof.Kernel.Oblig0
import proofs.«160318_j35888746725725_1_alg».proof.Proof.Kernel.Oblig1
import proofs.«160318_j35888746725725_1_alg».proof.Proof.Gen.Kernel.Regions
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: host stretch, pallas_call 0, host stretch, pallas_call 1, host stretch

The contents of every unscoped buffer are followed through @main as a fold: the launch memory, the first reshape,
what the first layer's region leaves, the second reshape, what the second region leaves, the linear head.  Every weakly
fair execution terminates, and every unscoped buffer ends at the last fold. -/

variable (m : (ℓ : Loc nD τ sig) → Buf (Elt F) ℓ) (ρ : Dev nD → PrngReg)

/-- Core `c`'s buffers at launch. -/
abbrev W0 : Dev nD → Valuation τ sig (Elt F) := fun c b => m (c, b)
/-- After the first host stretch (the first bias as a row). -/
abbrev W1 : Dev nD → Valuation τ sig (Elt F) := fun c => StableHlo.after hostOps0 (W0 m c)
/-- The same read at the TensorCore's references: what pallas_call 0 is entered from. -/
abbrev E1 : (c : Dev nD) → (b : Ref sig .tc) → Buf (Elt F) ((c : Thread nD τ).loc b) := fun c b => W1 m c b

/-- At pallas_call 0's exit: its arrays at what the pipeline leaves (the inputs as entered, the output with its
    written-back tiles), every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input array of the region is not changed by it. -/
theorem W2_input (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hw _).trans (A_eq0 (E1 m) c w))
theorem hF0 (c : Dev nD) (w : Fin cfg0.W) : (dat0 (E1 m) c).arrAt w cfg0.N = W2 m c (Pipeline.arrRef spec0 w) :=
  (W2_arr m c w).symm
theorem hrest0 (c : Dev nD) : ∀ b, b ∉ Finset.univ.image (Pipeline.arrRef spec0) → W2 m c b = E1 m c b :=
  fun b hb => W2_of_ne m c b fun w e => hb (Finset.mem_image.mpr ⟨w, Finset.mem_univ _, e⟩)

/-- After the second host stretch (the second bias as a row). -/
abbrev W3 : Dev nD → Valuation τ sig (Elt F) := fun c => StableHlo.after hostOps1 (W2 m c)
/-- What pallas_call 1 is entered from. -/
abbrev E3 : (c : Dev nD) → (b : Ref sig .tc) → Buf (Elt F) ((c : Thread nD τ).loc b) := fun c b => W3 m c b

/-- At pallas_call 1's exit: its arrays at what the pipeline leaves (the inputs as entered, the output with its
    written-back tiles), every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- An input array of the region is not changed by it. -/
theorem W4_input (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (E3 m) c).arrAt_in w hw _).trans (A_eq1 (E3 m) c w))
theorem hF1 (c : Dev nD) (w : Fin cfg1.W) : (dat1 (E3 m) c).arrAt w cfg1.N = W4 m c (Pipeline.arrRef spec1 w) :=
  (W4_arr m c w).symm
theorem hrest1 (c : Dev nD) : ∀ b, b ∉ Finset.univ.image (Pipeline.arrRef spec1) → W4 m c b = E3 m c b :=
  fun b hb => W4_of_ne m c b fun w e => hb (Finset.mem_image.mpr ⟨w, Finset.mem_univ _, e⟩)

/-- After the last host stretch (the linear head): the contents at the return. -/
abbrev W5 : Dev nD → Valuation τ sig (Elt F) := fun c => StableHlo.after hostOps2 (W4 m c)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
/-- A host stretch as a segment over all the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

-- a library lemma stated over a pinned configuration unifies with the printed one only when unification may unfold
-- plain definitions in a metavariable's type
set_option backward.isDefEq.respectTransparency.types false in
/-- pallas_call 0 over the thread state: entered with every unscoped buffer at `W1`, left with them at `W2`.
    Its five arrays are split out of the unscoped buffers at entry and put back at the exit contents; the generator
    register goes into the region's invariant and comes back; nothing is owed; the kernel has no semaphore of its own. -/
def regionSeg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (E1 m) c
    unfold Pipeline.ΦA at h
    rw [show (pdats m 0 c).Φ 0 = (dat0 (E1 m) c).Φ 0 from rfl]
    iintro ⟨Hp, -, Hr⟩
    iapply h
    isplitl [Hr]; · iexact Hr
    iexact Hp
  hout c := by
    rw [Pipeline.ownSems0_none]
    have h := hout0 (E1 m) c
    unfold Pipeline.ΦA at h
    rw [show (pdats m 0 c).Φ (Fin.last _) = (dat0 (E1 m) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- pallas_call 1 over the thread state: entered with every unscoped buffer at `W3`, left with them at `W4`.
    Its five arrays are split out of the unscoped buffers at entry and put back at the exit contents; the generator
    register goes into the region's invariant and comes back; nothing is owed; the kernel has no semaphore of its own. -/
def regionSeg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E3 m) c
    unfold Pipeline.ΦA at h
    rw [show (pdats m 1 c).Φ 0 = (dat1 (E3 m) c).Φ 0 from rfl]
    iintro ⟨Hp, -, Hr⟩
    iapply h
    isplitl [Hr]; · iexact Hr
    iexact Hp
  hout c := by
    rw [Pipeline.ownSems0_none]
    have h := hout1 (E3 m) c
    unfold Pipeline.ΦA at h
    rw [show (pdats m 1 c).Φ (Fin.last _) = (dat1 (E3 m) c).Φ (Fin.last cfg1.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev mainSegs : List (Pipeline.Seg (pcfgs (F := F)) adm (pdats m) () defs₀ 𝒱₀ L lv) :=
  [ .host (hseg hostOps0 hostOps0_sub hostOps0_fresh (W0 m)),
    .region (regionSeg0 m),
    .host (hseg hostOps1 hostOps1_sub hostOps1_fresh (W2 m)),
    .region (regionSeg1 m),
    .host (hseg hostOps2 hostOps2_sub hostOps2_fresh (W4 m)) ]
/-- @main IS the run of the segments. -/
theorem main_run (c : Dev nD) : main (F := F) c = Pipeline.Seg.run (mainSegs m) := (main_chain c).trans (by chain_rfl)

set_option backward.isDefEq.respectTransparency.types false in
/-- THE RUN: from any memory with zero counters every weakly fair execution of @main terminates, nothing faulting, and
    every unscoped buffer ends at the last fold `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Gen
end
-- ==== Proof.Kernel.Args.lean ====
import proofs.«160318_j35888746725725_1_alg».proof.Proof.Kernel.Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The argument arrays end as launched

Walking the fold of @main back from the return to the launch at an argument's buffer: the host stretches write only
their own results, and a region changes only its output array. -/

variable (m : (ℓ : Loc nD τ sig) → Buf (Elt F) ℓ) (ρ : Dev nD → PrngReg)

/-- `main_arg0` ends as launched: no host stretch writes it and no region changes it. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 (W4 m c) hostOps2_writes (r := main_arg0) (by decide)
    _ = W3 m c (Proc.devRef .tc main_arg0) := W4_of_ne m c main_arg0 (by decide)
    _ = W2 m c (Proc.devRef .tc main_arg0) := StableHlo.after_of_writes_sub hostOps1 (W2 m c) hostOps1_writes (r := main_arg0) (by decide)
    _ = W1 m c (Proc.devRef .tc main_arg0) := W2_input m c 1 rfl
    _ = W0 m c (Proc.devRef .tc main_arg0) := StableHlo.after_of_writes_sub hostOps0 (W0 m c) hostOps0_writes (r := main_arg0) (by decide)
    _ = m ((c : Thread nD τ).loc main_arg0) := rfl

/-- `main_arg1` ends as launched: no host stretch writes it and no region changes it. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 (W4 m c) hostOps2_writes (r := main_arg1) (by decide)
    _ = W3 m c (Proc.devRef .tc main_arg1) := W4_input m c 0 rfl
    _ = W2 m c (Proc.devRef .tc main_arg1) := StableHlo.after_of_writes_sub hostOps1 (W2 m c) hostOps1_writes (r := main_arg1) (by decide)
    _ = W1 m c (Proc.devRef .tc main_arg1) := W2_input m c 0 rfl
    _ = W0 m c (Proc.devRef .tc main_arg1) := StableHlo.after_of_writes_sub hostOps0 (W0 m c) hostOps0_writes (r := main_arg1) (by decide)
    _ = m ((c : Thread nD τ).loc main_arg1) := rfl

/-- `main_arg2` ends as launched: no host stretch writes it and no region changes it. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 (W4 m c) hostOps2_writes (r := main_arg2) (by decide)
    _ = W3 m c (Proc.devRef .tc main_arg2) := W4_of_ne m c main_arg2 (by decide)
    _ = W2 m c (Proc.devRef .tc main_arg2) := StableHlo.after_of_writes_sub hostOps1 (W2 m c) hostOps1_writes (r := main_arg2) (by decide)
    _ = W1 m c (Proc.devRef .tc main_arg2) := W2_input m c 2 rfl
    _ = W0 m c (Proc.devRef .tc main_arg2) := StableHlo.after_of_writes_sub hostOps0 (W0 m c) hostOps0_writes (r := main_arg2) (by decide)
    _ = m ((c : Thread nD τ).loc main_arg2) := rfl

/-- `main_arg3` ends as launched: no host stretch writes it and no region changes it. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 (W4 m c) hostOps2_writes (r := main_arg3) (by decide)
    _ = W3 m c (Proc.devRef .tc main_arg3) := W4_of_ne m c main_arg3 (by decide)
    _ = W2 m c (Proc.devRef .tc main_arg3) := StableHlo.after_of_writes_sub hostOps1 (W2 m c) hostOps1_writes (r := main_arg3) (by decide)
    _ = W1 m c (Proc.devRef .tc main_arg3) := W2_of_ne m c main_arg3 (by decide)
    _ = W0 m c (Proc.devRef .tc main_arg3) := StableHlo.after_of_writes_sub hostOps0 (W0 m c) hostOps0_writes (r := main_arg3) (by decide)
    _ = m ((c : Thread nD τ).loc main_arg3) := rfl

/-- `main_arg4` ends as launched: no host stretch writes it and no region changes it. -/
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 (W4 m c) hostOps2_writes (r := main_arg4) (by decide)
    _ = W3 m c (Proc.devRef .tc main_arg4) := W4_input m c 2 rfl
    _ = W2 m c (Proc.devRef .tc main_arg4) := StableHlo.after_of_writes_sub hostOps1 (W2 m c) hostOps1_writes (r := main_arg4) (by decide)
    _ = W1 m c (Proc.devRef .tc main_arg4) := W2_of_ne m c main_arg4 (by decide)
    _ = W0 m c (Proc.devRef .tc main_arg4) := StableHlo.after_of_writes_sub hostOps0 (W0 m c) hostOps0_writes (r := main_arg4) (by decide)
    _ = m ((c : Thread nD τ).loc main_arg4) := rfl

/-- `main_arg5` ends as launched: no host stretch writes it and no region changes it. -/
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 (W4 m c) hostOps2_writes (r := main_arg5) (by decide)
    _ = W3 m c (Proc.devRef .tc main_arg5) := W4_of_ne m c main_arg5 (by decide)
    _ = W2 m c (Proc.devRef .tc main_arg5) := StableHlo.after_of_writes_sub hostOps1 (W2 m c) hostOps1_writes (r := main_arg5) (by decide)
    _ = W1 m c (Proc.devRef .tc main_arg5) := W2_of_ne m c main_arg5 (by decide)
    _ = W0 m c (Proc.devRef .tc main_arg5) := StableHlo.after_of_writes_sub hostOps0 (W0 m c) hostOps0_writes (r := main_arg5) (by decide)
    _ = m ((c : Thread nD τ).loc main_arg5) := rfl

/-- `main_arg6` ends as launched: no host stretch writes it and no region changes it. -/
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 (W4 m c) hostOps2_writes (r := main_arg6) (by decide)
    _ = W3 m c (Proc.devRef .tc main_arg6) := W4_of_ne m c main_arg6 (by decide)
    _ = W2 m c (Proc.devRef .tc main_arg6) := StableHlo.after_of_writes_sub hostOps1 (W2 m c) hostOps1_writes (r := main_arg6) (by decide)
    _ = W1 m c (Proc.devRef .tc main_arg6) := W2_of_ne m c main_arg6 (by decide)
    _ = W0 m c (Proc.devRef .tc main_arg6) := StableHlo.after_of_writes_sub hostOps0 (W0 m c) hostOps0_writes (r := main_arg6) (by decide)
    _ = m ((c : Thread nD τ).loc main_arg6) := rfl

/-- `main_arg7` ends as launched: no host stretch writes it and no region changes it. -/
theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 (W4 m c) hostOps2_writes (r := main_arg7) (by decide)
    _ = W3 m c (Proc.devRef .tc main_arg7) := W4_of_ne m c main_arg7 (by decide)
    _ = W2 m c (Proc.devRef .tc main_arg7) := StableHlo.after_of_writes_sub hostOps1 (W2 m c) hostOps1_writes (r := main_arg7) (by decide)
    _ = W1 m c (Proc.devRef .tc main_arg7) := W2_of_ne m c main_arg7 (by decide)
    _ = W0 m c (Proc.devRef .tc main_arg7) := StableHlo.after_of_writes_sub hostOps0 (W0 m c) hostOps0_writes (r := main_arg7) (by decide)
    _ = m ((c : Thread nD τ).loc main_arg7) := rfl

/-- THE FRAME: every weakly fair execution terminates, nothing faulting, and the eight argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c)⟩) (run_main m ρ)

end Cert.Kernel.Gen
end
-- ==== Proof.KernelIdeal.Step0.lean ====
import proofs.«160318_j35888746725725_1_alg».proof.Proof.Gen.KernelIdeal.Launch
import proofs.«160318_j35888746725725_1_alg».proof.Proof.Gen.KernelIdeal.Skeleton
import proofs.«160318_j35888746725725_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One grid step of an aggregate-and-project layer (pallas_call 0)

At grid point `(i, k)` the step reads the adjacency tile `A[i, k]`, the feature tile `X[k]`, the resident weight
`W` and the running sum kept in scratch, and leaves in scratch `acc + A[i,k] · (X[k] · W)`.  At `k = 0` the
running sum restarts from zero; at the last `k` the output tile receives `max (acc + b, 0)`.  Three cases: the
first `k`, a middle `k`, the last `k`. -/

/-- The step restarts the running sum: the contraction coordinate is `0`. -/
abbrev cond0_0 (i : grid0.Coords) : Prop := (Scalar.cmpi .ne (Scalar.extui (Scalar.cmpi .eq (BitVec.ofNat 32 (i 1).val) 0#32)) 0#32) = 1#1
/-- The step writes the output tile: the contraction coordinate is the last one. -/
abbrev cond0_1 (i : grid0.Coords) : Prop := k0_cond2 i = 1#1

/-- A whole-tile access starts at the origin. -/
theorem origin0 : (![0, 0] : Fin 2 → Nat) = fun _ => 0 := funext fun a => by fin_cases a <;> rfl

/-- The running sum after a step from the sum `a`, over the adjacency tile `x2`, the feature tile `x3` and the weight `x4`. -/
abbrev stepSum0 (x2 : Vec F S2048x1024 .f32) (x3 : Vec F S1024x128 .f32) (x4 : Vec F S128x128 .f32) (a : Vec F S2048x128 .f32) : Vec F S2048x128 .f32 :=
  k0_pay2 x3 x4 x2 a

/-- The output tile from the finished sum `a` and the bias row `x5`. -/
abbrev outTile0 (a : Vec F S2048x128 .f32) (x5 : Vec F S1x128 .f32) : Vec F S2048x128 .f32 := k0_pay3 a x5

set_option maxHeartbeats 1000000 in
/-- FIRST `k`: whatever the scratch held, it ends at one step from zero; the output tile is not touched. -/
theorem step0_first (c : Dev nD) (E : Set ℕ) (i : grid0.Coords) (arg2 : Memref sig .tc .vmem S2048x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
    (hc0 : cond0_0 i) (hc1 : ¬cond0_1 i)
    (x2 : Vec F S2048x1024 .f32) (x3 : Vec F S1024x128 .f32) (x4 : Vec F S128x128 .f32) (K : PUnit → sProp 𝕄) :
    iprop(owns (c : Thread nD τ) arg2 fullShare x2 ∗ owns (c : Thread nD τ) arg3 fullShare x3 ∗ owns (c : Thread nD τ) arg4 fullShare x4 ∗ (∃ a, owns (c : Thread nD τ) arg7 fullShare a)
        ∗ (iprop(owns (c : Thread nD τ) arg2 fullShare x2 ∗ owns (c : Thread nD τ) arg3 fullShare x3 ∗ owns (c : Thread nD τ) arg4 fullShare x4 ∗ owns (c : Thread nD τ) arg7 fullShare (stepSum0 x2 x3 x4 k0_pay1)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f2, %hf2, H2⟩, ⟨%f3, %hf3, H3⟩, ⟨%f4, %hf4, H4⟩, ⟨%a, %f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (fun y => ⟨_, List.mem_cons_self, View.mem_set_unit_zero origin0 inb_S2048x128_S2048x128_0_0 y⟩)]
  rw [View.canon_cons_unit_zero origin0]
  sl_unfold_words
  simp only [View.readAt_eq_ld, Memref.IsWhole.read_unread, View.ld_unit_zero (S := S1024x128) origin0, View.ld_unit_zero (S := S128x128) origin0, View.ld_unit_zero (S := S2048x1024) origin0, View.ld_unit_zero (S := S2048x128) origin0, View.readCov_unit_zero (S := S2048x128) _ origin0]

set_option maxHeartbeats 1000000 in
/-- A MIDDLE `k`: the scratch goes from the sum `a` to one step further; the output tile is not touched. -/
theorem step0_middle (c : Dev nD) (E : Set ℕ) (i : grid0.Coords) (arg2 : Memref sig .tc .vmem S2048x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
    (hc0 : ¬cond0_0 i) (hc1 : ¬cond0_1 i)
    (x2 : Vec F S2048x1024 .f32) (x3 : Vec F S1024x128 .f32) (x4 : Vec F S128x128 .f32) (a : Vec F S2048x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg7 fullShare a
        ∗ (iprop(owns (c : Thread nD τ) arg2 fullShare x2 ∗ owns (c : Thread nD τ) arg3 fullShare x3 ∗ owns (c : Thread nD τ) arg4 fullShare x4 ∗ owns (c : Thread nD τ) arg7 fullShare (stepSum0 x2 x3 x4 a)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f2, %hf2, H2⟩, ⟨%f3, %hf3, H3⟩, ⟨%f4, %hf4, H4⟩, ⟨%f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (fun y => ⟨_, List.mem_cons_self, View.mem_set_unit_zero origin0 inb_S2048x128_S2048x128_0_0 y⟩)]
  rw [View.canon_cons_unit_zero origin0]
  sl_unfold_words
  simp only [View.readAt_eq_ld, Memref.IsWhole.read_unread, View.ld_unit_zero (S := S1024x128) origin0, View.ld_unit_zero (S := S128x128) origin0, View.ld_unit_zero (S := S2048x1024) origin0, View.ld_unit_zero (S := S2048x128) origin0]

set_option maxHeartbeats 1000000 in
/-- THE LAST `k`: the scratch goes from `a` to the finished sum, and the output tile — whatever it held — receives
    the finished sum plus the bias row `x5`, clamped below at zero. -/
theorem step0_last (c : Dev nD) (E : Set ℕ) (i : grid0.Coords) (arg2 : Memref sig .tc .vmem S2048x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
    (hc0 : ¬cond0_0 i) (hc1 : cond0_1 i)
    (x2 : Vec F S2048x1024 .f32) (x3 : Vec F S1024x128 .f32) (x4 : Vec F S128x128 .f32) (x5 : Vec F S1x128 .f32) (a : Vec F S2048x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare a
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outTile0 (stepSum0 x2 x3 x4 a) x5) ∗ owns (c : Thread nD τ) arg7 fullShare (stepSum0 x2 x3 x4 a)) -∗ K ⟨⟩))
      ⊢ wp frame (wpE (defs₀ (F := F)) Variants.none c none) E (cc0__gcn_layer_kernel i arg2 harg2 arg3 harg3 arg4 harg4 arg5 harg5 arg6 harg6 arg7 harg7) K := by
  simp only [cc0__gcn_layer_kernel_eq_skeleton]; unfold cc0__gcn_layer_kernel_skel
  unfold owns
  iintro ⟨⟨%f2, %hf2, H2⟩, ⟨%f3, %hf3, H3⟩, ⟨%f4, %hf4, H4⟩, ⟨%f5, %hf5, H5⟩, ⟨%d6, %f6, %hf6, H6⟩, ⟨%f7, %hf7, H7⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_cons_self, View.mem_set_unit_zero origin0 inb_S2048x128_S2048x128_0_0 y⟩)]
    rw [View.canon_cons_unit_zero origin0]
    sl_unfold_words
    simp only [View.readAt_eq_ld, Memref.IsWhole.read_unread, View.ld_unit_zero (S := S1024x128) origin0, View.ld_unit_zero (S := S128x128) origin0, View.ld_unit_zero (S := S2048x1024) origin0, View.ld_unit_zero (S := S2048x128) origin0, View.ld_unit_zero (S := S1x128) origin0, View.readCov_unit_zero (S := S2048x128) _ origin0]
  iexists _; isplitr
  swap; · iexact H7
  ipureintro
  sl_unfold_words
  rw [View.read_writes_eq_canon _ _ _ (fun y => ⟨_, List.mem_cons_self, View.mem_set_unit_zero origin0 inb_S2048x128_S2048x128_0_0 y⟩)]
  rw [View.canon_cons_unit_zero origin0]
  simp only [View.readAt_eq_ld, Memref.IsWhole.read_unread, View.ld_unit_zero (S := S1024x128) origin0, View.ld_unit_zero (S := S128x128) origin0, View.ld_unit_zero (S := S2048x1024) origin0, View.ld_unit_zero (S := S2048x128) origin0]

end Cert.KernelIdeal.Gen
end
-- ==== Proof.KernelIdeal.Layer0.lean ====
import proofs.«160318_j35888746725725_1_alg».proof.Proof.KernelIdeal.Step0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The grid of pallas_call 0: what the running sum and the output tile hold, point by point

The grid is 8 row tiles by 16 contraction tiles, walked with the contraction coordinate fastest: point `n` has
`k = n % 16`.  The running sum restarts at `k = 0` and the output tile is written, and sent back to its array, at
`k = 15`. -/

/-- The step restarts the sum exactly at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)
/-- The step writes the output tile exactly at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)
/-- Away from those points the output window is idle, -/
theorem idleAt0_4 : ∀ t : Fin cfg0.N, ¬ t.val % 16 = 15 → cfg0.idle 4 (grid0.coords t) = true :=
  (by decide +kernel : ∀ t : Fin grid0.N, ¬ t.val % 16 = 15 → cfg0.idle 4 (grid0.coords t) = true)
/-- and at them it is live. -/
theorem liveAt0_4 : ∀ t : Fin cfg0.N, t.val % 16 = 15 → cfg0.idle 4 (grid0.coords t) = false :=
  (by decide +kernel : ∀ t : Fin grid0.N, t.val % 16 = 15 → cfg0.idle 4 (grid0.coords t) = false)
theorem noFlush0_4 (t : Fin cfg0.N) (h : ¬ t.val % 16 = 15) : (cfg0.win 4).flush t = false := by
  cases hf : (cfg0.win 4).flush t
  · rfl
  · exact absurd ((flush0_4 t).mp hf) h

/-- The scratch operand that carries the running sum. -/
abbrev scM0 : Memref sig .tc .vmem S2048x128 .f32 := Memref.whole cc0_scratch0

section Region
-- the buffer contents the region is entered from
variable (V : (c : Dev nD) → (b : Ref sig .tc) → Buf (Elt F) ((c : Thread nD τ).loc b))

/-- Window `w`'s tile at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile, the feature tile, the weight and the bias row at point `t`, at their literal types. -/
abbrev adjT0 (c : Dev nD) (t : Fin cfg0.N) : Vec F S2048x1024 .f32 := iblk0 V c 0 t
abbrev featT0 (c : Dev nD) (t : Fin cfg0.N) : Vec F S1024x128 .f32 := iblk0 V c 1 t
abbrev wT0 (c : Dev nD) (t : Fin cfg0.N) : Vec F S128x128 .f32 := iblk0 V c 2 t
abbrev bT0 (c : Dev nD) (t : Fin cfg0.N) : Vec F S1x128 .f32 := iblk0 V c 3 t

/-- THE RUNNING SUM after point `n`: one step from zero where the contraction restarts, else one step from the
    sum the point before left. -/
def sum0 (c : Dev nD) : (n : ℕ) → n < cfg0.N → Vec F S2048x128 .f32
  | 0, hn => stepSum0 (adjT0 V c ⟨0, hn⟩) (featT0 V c ⟨0, hn⟩) (wT0 V c ⟨0, hn⟩) k0_pay1
  | n + 1, hn =>
    if (n + 1) % 16 = 0 then stepSum0 (adjT0 V c ⟨n + 1, hn⟩) (featT0 V c ⟨n + 1, hn⟩) (wT0 V c ⟨n + 1, hn⟩) k0_pay1
    else stepSum0 (adjT0 V c ⟨n + 1, hn⟩) (featT0 V c ⟨n + 1, hn⟩) (wT0 V c ⟨n + 1, hn⟩) (sum0 c n (Nat.lt_of_succ_lt hn))

theorem sum0_first (c : Dev nD) (t : Fin cfg0.N) (h : t.val % 16 = 0) :
    sum0 V c t.val t.isLt = stepSum0 (adjT0 V c t) (featT0 V c t) (wT0 V c t) k0_pay1 := by
  obtain ⟨n, hn⟩ := t
  cases n with
  | zero => rfl
  | succ n => exact if_pos h

theorem sum0_next (c : Dev nD) (t : Fin cfg0.N) (h : ¬ t.val % 16 = 0) :
    sum0 V c t.val t.isLt = stepSum0 (adjT0 V c t) (featT0 V c t) (wT0 V c t)
      (sum0 V c (t.val - 1) (Nat.lt_of_le_of_lt (Nat.sub_le _ _) t.isLt)) := by
  obtain ⟨n, hn⟩ := t
  cases n with
  | zero => exact absurd (Nat.zero_mod _) h
  | succ n => exact if_neg h

/-- The output tile a point with `k = 15` writes. -/
def out0 (c : Dev nD) (t : Fin cfg0.N) : Vec F S2048x128 .f32 := outTile0 (sum0 V c t.val t.isLt) (bT0 V c t)

/-- The scoped buffers the region does not use, each at anything. -/
def idleBufs0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's invariant before point `t`: the scratch at the running sum the point before left (at anything
    before the first point), the unused scoped buffers, the generator register at some state. -/
def Phi0 (c : Dev nD) (t : Fin (cfg0.N + 1)) : sProp 𝕄 :=
  iprop((∃ X, ⌜∀ h : t.val ≠ 0, X = sum0 V c (t.val - 1) (by have := t.isLt; omega)⌝ ∗ owns (c : Thread nD τ) scM0 fullShare X)
    ∗ idleBufs0 (F := F) c ∗ (∃ r, prngReg c r))

/-- The class invariant (every scoped buffer the pipeline does not stage at anything, the generator register) with
    the scratch singled out. -/
theorem PhiA0_eq (c : Dev nD) :
    (Pipeline.ΦA spec0 c : sProp 𝕄)
      = iprop(((∃ d, owns (c : Thread nD τ) scM0 fullShare d) ∗ idleBufs0 (F := F) c) ∗ (∃ r, prngReg c r)) := by
  unfold Pipeline.ΦA idleBufs0
  rw [Pipeline.scopedRest_eq_of_list spec0 c [cc0_scratch0, cc1_stg0_0, cc1_stg0_1, cc1_stg1_0, cc1_stg1_1, cc1_stg2_0, cc1_stg3_0, cc1_stg4_0, cc1_stg4_1, cc1_scratch0] (by decide) (by decide)]
  simp only [scM0, owns_whole, List.map_cons, List.map_nil]; try rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := Phi0 V c t
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

/-- Each input's current staging buffer holds its tile at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

end Region

end Cert.KernelIdeal.Gen
end
-- ==== Proof.KernelIdeal.Oblig0.lean ====
import proofs.«160318_j35888746725725_1_alg».proof.Proof.KernelIdeal.Layer0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body obligation of pallas_call 0

At every grid point the pipeline hands the body its five current staging buffers — the four inputs at their tiles,
the output at whatever it holds — and the invariant; the body returns the inputs as they were, the scratch one
step further, and, at the points with `k = 15`, the output buffer at the finished tile. -/

section Region
variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_in (c : Dev nD) (t : Fin cfg0.N) (w : Fin cfg0.W) (hw : cfg0.idle w (grid0.coords t) = false) :
    (dat0 V c).leavesExact w t = owns (c : Thread nD τ) ((cfg0.win w).stage (cfg0.slots t w)) fullShare ((dat0 V c).after w t) := by
  unfold Dat.leavesExact; rw [hw]

theorem Phi0_succ (c : Dev nD) (t : Fin cfg0.N) :
    (dat0 V c).Φ t.succ = iprop((∃ X, ⌜X = sum0 V c t.val t.isLt⌝ ∗ owns (c : Thread nD τ) scM0 fullShare X)
      ∗ idleBufs0 (F := F) c ∗ (∃ r, prngReg c r)) := by
  show Phi0 V c t.succ = _
  unfold Phi0
  congr 2
  funext X
  congr 2
  exact propext ⟨fun h => h (Nat.succ_ne_zero _), fun h _ => h⟩

set_option maxHeartbeats 4000000 in
/-- The body at any point, by the three cases of the contraction coordinate. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [Phi0_succ]
  rw [leaves0_in V c t 0 rfl, leaves0_in V c t 1 rfl, leaves0_in V c t 2 rfl, leaves0_in V c t 3 rfl,
    after0_0, after0_1, after0_2, after0_3]
  rw [show (dat0 V c).Φ t.castSucc = Phi0 V c t.castSucc from rfl]
  unfold Phi0
  by_cases h0 : t.val % 16 = 0
  · -- the first contraction tile: the sum restarts
    have h1 : ¬ t.val % 16 = 15 := by omega
    rw [Dat.leavesExact_idle (dat0 V c) 4 t (idleAt0_4 t h1) (noFlush0_4 t h1)]
    rw [sum0_first V c t h0]
    iintro ⟨⟨⟨%X, -, HS⟩, Hi, Hg⟩, Ho, ⟨%d0, H0⟩, ⟨%d1, H1⟩, ⟨%d2, H2⟩, ⟨%d3, H3⟩, H4⟩
    iapply (step0_first c Set.univ (grid0.coords t) _ _ _ _ _ _ _ _ _ _ _ _ ((hcond0_0 t).mpr h0) (fun h => h1 ((hcond0_1 t).mp h)) (adjT0 V c t) (featT0 V c t) (wT0 V c t) _)
    isplitl [H0]; · iexact H0
    isplitl [H1]; · iexact H1
    isplitl [H2]; · iexact H2
    isplitl [HS]; · iexists _; iexact HS
    iintro ⟨H0, H1, H2, HS⟩
    isplitl [HS Hi Hg]
    · isplitl [HS]
      · iexists _; isplitr; · ipureintro; rfl
        iexact HS
      isplitl [Hi]; · iexact Hi
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [sum0_next V c t h0]
    by_cases h1 : t.val % 16 = 15
    · -- the last contraction tile: the output tile is written
      rw [leaves0_in V c t 4 (liveAt0_4 t h1), after0_4]
      unfold out0
      rw [sum0_next V c t h0]
      iintro ⟨⟨⟨%X, %hX, HS⟩, Hi, Hg⟩, Ho, ⟨%d0, H0⟩, ⟨%d1, H1⟩, ⟨%d2, H2⟩, ⟨%d3, H3⟩, ⟨%d4, H4⟩⟩
      obtain rfl := hX hz
      iapply (step0_last c Set.univ (grid0.coords t) _ _ _ _ _ _ _ _ _ _ _ _ (fun h => h0 ((hcond0_0 t).mp h)) ((hcond0_1 t).mpr h1) (adjT0 V c t) (featT0 V c t) (wT0 V c t) (bT0 V c t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hi Hg]
      · isplitl [HS]
        · iexists _; isplitr; · ipureintro; rfl
          iexact HS
        isplitl [Hi]; · iexact Hi
        iexact Hg
      isplitl [Ho]; · iexact Ho
      isplitl [H0]; · iexact H0
      isplitl [H1]; · iexact H1
      isplitl [H2]; · iexact H2
      isplitl [H3]; · iexact H3
      iexact H4
    · -- a middle contraction tile
      rw [Dat.leavesExact_idle (dat0 V c) 4 t (idleAt0_4 t h1) (noFlush0_4 t h1)]
      iintro ⟨⟨⟨%X, %hX, HS⟩, Hi, Hg⟩, Ho, ⟨%d0, H0⟩, ⟨%d1, H1⟩, ⟨%d2, H2⟩, ⟨%d3, H3⟩, H4⟩
      obtain rfl := hX hz
      iapply (step0_middle c Set.univ (grid0.coords t) _ _ _ _ _ _ _ _ _ _ _ _ (fun h => h0 ((hcond0_0 t).mp h)) (fun h => h1 ((hcond0_1 t).mp h)) (adjT0 V c t) (featT0 V c t) (wT0 V c t) _ _)
      isplitl [H0]; · iexact H0
      isplitl [H1]; · iexact H1
      isplitl [H2]; · iexact H2
      isplitl [HS]; · iexact HS
      iintro ⟨H0, H1, H2, HS⟩
      isplitl [HS Hi Hg]
      · isplitl [HS]
        · iexists _; isplitr; · ipureintro; rfl
          iexact HS
        isplitl [Hi]; · iexact Hi
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 from rfl, PhiA0_eq]
  unfold Phi0
  iintro ⟨⟨⟨%d, HS⟩, Hi⟩, Hg⟩
  isplitl [HS]
  · iexists d; isplitr; · ipureintro; exact fun h => absurd rfl h
    iexact HS
  isplitl [Hi]; · iexact Hi
  iexact Hg

/-- After the last point the invariant gives the class's back: what the scratch holds is forgotten. -/
theorem hout0 (c : Dev nD) : (dat0 V c).Φ (Fin.last cfg0.N) ⊢ Pipeline.ΦA spec0 c := by
  rw [show (dat0 V c).Φ (Fin.last cfg0.N) = Phi0 V c (Fin.last cfg0.N) from rfl, PhiA0_eq]
  unfold Phi0
  iintro ⟨⟨%X, -, HS⟩, Hi, Hg⟩
  isplitl [HS Hi]
  · isplitl [HS]; · iexists X; iexact HS
    iexact Hi
  iexact Hg

end Region

end Cert.KernelIdeal.Gen
end
-- ==== Proof.KernelIdeal.Step1.lean ====
import proofs.«160318_j35888746725725_1_alg».proof.Proof.Gen.KernelIdeal.Launch
import proofs.«160318_j35888746725725_1_alg».proof.Proof.Gen.KernelIdeal.Skeleton
import proofs.«160318_j35888746725725_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One grid step of an aggregate-and-project layer (pallas_call 1)

At grid point `(i, k)` the step reads the adjacency tile `A[i, k]`, the feature tile `X[k]`, the resident weight
`W` and the running sum kept in scratch, and leaves in scratch `acc + A[i,k] · (X[k] · W)`.  At `k = 0` the
running sum restarts from zero; at the last `k` the output tile receives `max (acc + b, 0)`.  Three cases: the
first `k`, a middle `k`, the last `k`. -/

/-- The step restarts the running sum: the contraction coordinate is `0`. -/
abbrev cond1_0 (i : grid1.Coords) : Prop := (Scalar.cmpi .ne (Scalar.extui (Scalar.cmpi .eq (BitVec.ofNat 32 (i 1).val) 0#32)) 0#32) = 1#1
/-- The step writes the output tile: the contraction coordinate is the last one. -/
abbrev cond1_1 (i : grid1.Coords) : Prop := k1_cond2 i = 1#1

/-- A whole-tile access starts at the origin. -/
theorem origin1 : (![0, 0] : Fin 2 → Nat) = fun _ => 0 := funext fun a => by fin_cases a <;> rfl

/-- The running sum after a step from the sum `a`, over the adjacency tile `x2`, the feature tile `x3` and the weight `x4`. -/
abbrev stepSum1 (x2 : Vec F S2048x1024 .f32) (x3 : Vec F S1024x128 .f32) (x4 : Vec F S128x128 .f32) (a : Vec F S2048x128 .f32) : Vec F S2048x128 .f32 :=
  k1_pay2 x3 x4 x2 a

/-- The output tile from the finished sum `a` and the bias row `x5`. -/
abbrev outTile1 (a : Vec F S2048x128 .f32) (x5 : Vec F S1x128 .f32) : Vec F S2048x128 .f32 := k1_pay3 a x5

set_option maxHeartbeats 1000000 in
/-- FIRST `k`: whatever the scratch held, it ends at one step from zero; the output tile is not touched. -/
theorem step1_first (c : Dev nD) (E : Set ℕ) (i : grid1.Coords) (arg2 : Memref sig .tc .vmem S2048x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
    (hc0 : cond1_0 i) (hc1 : ¬cond1_1 i)
    (x2 : Vec F S2048x1024 .f32) (x3 : Vec F S1024x128 .f32) (x4 : Vec F S128x128 .f32) (K : PUnit → sProp 𝕄) :
    iprop(owns (c : Thread nD τ) arg2 fullShare x2 ∗ owns (c : Thread nD τ) arg3 fullShare x3 ∗ owns (c : Thread nD τ) arg4 fullShare x4 ∗ (∃ a, owns (c : Thread nD τ) arg7 fullShare a)
        ∗ (iprop(owns (c : Thread nD τ) arg2 fullShare x2 ∗ owns (c : Thread nD τ) arg3 fullShare x3 ∗ owns (c : Thread nD τ) arg4 fullShare x4 ∗ owns (c : Thread nD τ) arg7 fullShare (stepSum1 x2 x3 x4 k1_pay1)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f2, %hf2, H2⟩, ⟨%f3, %hf3, H3⟩, ⟨%f4, %hf4, H4⟩, ⟨%a, %f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (fun y => ⟨_, List.mem_cons_self, View.mem_set_unit_zero origin1 inb_S2048x128_S2048x128_0_0 y⟩)]
  rw [View.canon_cons_unit_zero origin1]
  sl_unfold_words
  simp only [View.readAt_eq_ld, Memref.IsWhole.read_unread, View.ld_unit_zero (S := S1024x128) origin1, View.ld_unit_zero (S := S128x128) origin1, View.ld_unit_zero (S := S2048x1024) origin1, View.ld_unit_zero (S := S2048x128) origin1, View.readCov_unit_zero (S := S2048x128) _ origin1]

set_option maxHeartbeats 1000000 in
/-- A MIDDLE `k`: the scratch goes from the sum `a` to one step further; the output tile is not touched. -/
theorem step1_middle (c : Dev nD) (E : Set ℕ) (i : grid1.Coords) (arg2 : Memref sig .tc .vmem S2048x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
    (hc0 : ¬cond1_0 i) (hc1 : ¬cond1_1 i)
    (x2 : Vec F S2048x1024 .f32) (x3 : Vec F S1024x128 .f32) (x4 : Vec F S128x128 .f32) (a : Vec F S2048x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg7 fullShare a
        ∗ (iprop(owns (c : Thread nD τ) arg2 fullShare x2 ∗ owns (c : Thread nD τ) arg3 fullShare x3 ∗ owns (c : Thread nD τ) arg4 fullShare x4 ∗ owns (c : Thread nD τ) arg7 fullShare (stepSum1 x2 x3 x4 a)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f2, %hf2, H2⟩, ⟨%f3, %hf3, H3⟩, ⟨%f4, %hf4, H4⟩, ⟨%f7, %hf7, H7⟩, Hk⟩
  obtain rfl := harg2.eq_unread hf2; obtain rfl := harg3.eq_unread hf3; obtain rfl := harg4.eq_unread hf4; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_eq_canon _ _ _ (fun y => ⟨_, List.mem_cons_self, View.mem_set_unit_zero origin1 inb_S2048x128_S2048x128_0_0 y⟩)]
  rw [View.canon_cons_unit_zero origin1]
  sl_unfold_words
  simp only [View.readAt_eq_ld, Memref.IsWhole.read_unread, View.ld_unit_zero (S := S1024x128) origin1, View.ld_unit_zero (S := S128x128) origin1, View.ld_unit_zero (S := S2048x1024) origin1, View.ld_unit_zero (S := S2048x128) origin1]

set_option maxHeartbeats 1000000 in
/-- THE LAST `k`: the scratch goes from `a` to the finished sum, and the output tile — whatever it held — receives
    the finished sum plus the bias row `x5`, clamped below at zero. -/
theorem step1_last (c : Dev nD) (E : Set ℕ) (i : grid1.Coords) (arg2 : Memref sig .tc .vmem S2048x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)
    (hc0 : ¬cond1_0 i) (hc1 : cond1_1 i)
    (x2 : Vec F S2048x1024 .f32) (x3 : Vec F S1024x128 .f32) (x4 : Vec F S128x128 .f32) (x5 : Vec F S1x128 .f32) (a : Vec F S2048x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare a
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outTile1 (stepSum1 x2 x3 x4 a) x5) ∗ owns (c : Thread nD τ) arg7 fullShare (stepSum1 x2 x3 x4 a)) -∗ K ⟨⟩))
      ⊢ wp frame (wpE (defs₀ (F := F)) Variants.none c none) E (cc1__gcn_layer_kernel i arg2 harg2 arg3 harg3 arg4 harg4 arg5 harg5 arg6 harg6 arg7 harg7) K := by
  simp only [cc1__gcn_layer_kernel_eq_skeleton]; unfold cc1__gcn_layer_kernel_skel
  unfold owns
  iintro ⟨⟨%f2, %hf2, H2⟩, ⟨%f3, %hf3, H3⟩, ⟨%f4, %hf4, H4⟩, ⟨%f5, %hf5, H5⟩, ⟨%d6, %f6, %hf6, H6⟩, ⟨%f7, %hf7, H7⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (fun y => ⟨_, List.mem_cons_self, View.mem_set_unit_zero origin1 inb_S2048x128_S2048x128_0_0 y⟩)]
    rw [View.canon_cons_unit_zero origin1]
    sl_unfold_words
    simp only [View.readAt_eq_ld, Memref.IsWhole.read_unread, View.ld_unit_zero (S := S1024x128) origin1, View.ld_unit_zero (S := S128x128) origin1, View.ld_unit_zero (S := S2048x1024) origin1, View.ld_unit_zero (S := S2048x128) origin1, View.ld_unit_zero (S := S1x128) origin1, View.readCov_unit_zero (S := S2048x128) _ origin1]
  iexists _; isplitr
  swap; · iexact H7
  ipureintro
  sl_unfold_words
  rw [View.read_writes_eq_canon _ _ _ (fun y => ⟨_, List.mem_cons_self, View.mem_set_unit_zero origin1 inb_S2048x128_S2048x128_0_0 y⟩)]
  rw [View.canon_cons_unit_zero origin1]
  simp only [View.readAt_eq_ld, Memref.IsWhole.read_unread, View.ld_unit_zero (S := S1024x128) origin1, View.ld_unit_zero (S := S128x128) origin1, View.ld_unit_zero (S := S2048x1024) origin1, View.ld_unit_zero (S := S2048x128) origin1]

end Cert.KernelIdeal.Gen
end
-- ==== Proof.KernelIdeal.Layer1.lean ====
import proofs.«160318_j35888746725725_1_alg».proof.Proof.KernelIdeal.Step1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The grid of pallas_call 1: what the running sum and the output tile hold, point by point

The grid is 8 row tiles by 16 contraction tiles, walked with the contraction coordinate fastest: point `n` has
`k = n % 16`.  The running sum restarts at `k = 0` and the output tile is written, and sent back to its array, at
`k = 15`. -/

/-- The step restarts the sum exactly at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
/-- The step writes the output tile exactly at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)
/-- Away from those points the output window is idle, -/
theorem idleAt1_4 : ∀ t : Fin cfg1.N, ¬ t.val % 16 = 15 → cfg1.idle 4 (grid1.coords t) = true :=
  (by decide +kernel : ∀ t : Fin grid1.N, ¬ t.val % 16 = 15 → cfg1.idle 4 (grid1.coords t) = true)
/-- and at them it is live. -/
theorem liveAt1_4 : ∀ t : Fin cfg1.N, t.val % 16 = 15 → cfg1.idle 4 (grid1.coords t) = false :=
  (by decide +kernel : ∀ t : Fin grid1.N, t.val % 16 = 15 → cfg1.idle 4 (grid1.coords t) = false)
theorem noFlush1_4 (t : Fin cfg1.N) (h : ¬ t.val % 16 = 15) : (cfg1.win 4).flush t = false := by
  cases hf : (cfg1.win 4).flush t
  · rfl
  · exact absurd ((flush1_4 t).mp hf) h

/-- The scratch operand that carries the running sum. -/
abbrev scM1 : Memref sig .tc .vmem S2048x128 .f32 := Memref.whole cc1_scratch0

section Region
-- the buffer contents the region is entered from
variable (V : (c : Dev nD) → (b : Ref sig .tc) → Buf (Elt F) ((c : Thread nD τ).loc b))

/-- Window `w`'s tile at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile, the feature tile, the weight and the bias row at point `t`, at their literal types. -/
abbrev adjT1 (c : Dev nD) (t : Fin cfg1.N) : Vec F S2048x1024 .f32 := iblk1 V c 0 t
abbrev featT1 (c : Dev nD) (t : Fin cfg1.N) : Vec F S1024x128 .f32 := iblk1 V c 1 t
abbrev wT1 (c : Dev nD) (t : Fin cfg1.N) : Vec F S128x128 .f32 := iblk1 V c 2 t
abbrev bT1 (c : Dev nD) (t : Fin cfg1.N) : Vec F S1x128 .f32 := iblk1 V c 3 t

/-- THE RUNNING SUM after point `n`: one step from zero where the contraction restarts, else one step from the
    sum the point before left. -/
def sum1 (c : Dev nD) : (n : ℕ) → n < cfg1.N → Vec F S2048x128 .f32
  | 0, hn => stepSum1 (adjT1 V c ⟨0, hn⟩) (featT1 V c ⟨0, hn⟩) (wT1 V c ⟨0, hn⟩) k1_pay1
  | n + 1, hn =>
    if (n + 1) % 16 = 0 then stepSum1 (adjT1 V c ⟨n + 1, hn⟩) (featT1 V c ⟨n + 1, hn⟩) (wT1 V c ⟨n + 1, hn⟩) k1_pay1
    else stepSum1 (adjT1 V c ⟨n + 1, hn⟩) (featT1 V c ⟨n + 1, hn⟩) (wT1 V c ⟨n + 1, hn⟩) (sum1 c n (Nat.lt_of_succ_lt hn))

theorem sum1_first (c : Dev nD) (t : Fin cfg1.N) (h : t.val % 16 = 0) :
    sum1 V c t.val t.isLt = stepSum1 (adjT1 V c t) (featT1 V c t) (wT1 V c t) k1_pay1 := by
  obtain ⟨n, hn⟩ := t
  cases n with
  | zero => rfl
  | succ n => exact if_pos h

theorem sum1_next (c : Dev nD) (t : Fin cfg1.N) (h : ¬ t.val % 16 = 0) :
    sum1 V c t.val t.isLt = stepSum1 (adjT1 V c t) (featT1 V c t) (wT1 V c t)
      (sum1 V c (t.val - 1) (Nat.lt_of_le_of_lt (Nat.sub_le _ _) t.isLt)) := by
  obtain ⟨n, hn⟩ := t
  cases n with
  | zero => exact absurd (Nat.zero_mod _) h
  | succ n => exact if_neg h

/-- The output tile a point with `k = 15` writes. -/
def out1 (c : Dev nD) (t : Fin cfg1.N) : Vec F S2048x128 .f32 := outTile1 (sum1 V c t.val t.isLt) (bT1 V c t)

/-- The scoped buffers the region does not use, each at anything. -/
def idleBufs1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The region's invariant before point `t`: the scratch at the running sum the point before left (at anything
    before the first point), the unused scoped buffers, the generator register at some state. -/
def Phi1 (c : Dev nD) (t : Fin (cfg1.N + 1)) : sProp 𝕄 :=
  iprop((∃ X, ⌜∀ h : t.val ≠ 0, X = sum1 V c (t.val - 1) (by have := t.isLt; omega)⌝ ∗ owns (c : Thread nD τ) scM1 fullShare X)
    ∗ idleBufs1 (F := F) c ∗ (∃ r, prngReg c r))

/-- The class invariant (every scoped buffer the pipeline does not stage at anything, the generator register) with
    the scratch singled out. -/
theorem PhiA1_eq (c : Dev nD) :
    (Pipeline.ΦA spec1 c : sProp 𝕄)
      = iprop(((∃ d, owns (c : Thread nD τ) scM1 fullShare d) ∗ idleBufs1 (F := F) c) ∗ (∃ r, prngReg c r)) := by
  unfold Pipeline.ΦA idleBufs1
  rw [Pipeline.scopedRest_eq_of_list spec1 c [cc1_scratch0, cc0_stg0_0, cc0_stg0_1, cc0_stg1_0, cc0_stg1_1, cc0_stg2_0, cc0_stg3_0, cc0_stg4_0, cc0_stg4_1, cc0_scratch0] (by decide) (by decide)]
  simp only [scM1, owns_whole, List.map_cons, List.map_nil]; try rfl

/-- The proof data of pipeline 0 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := Phi1 V c t
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

/-- Each input's current staging buffer holds its tile at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

end Region

end Cert.KernelIdeal.Gen
end
-- ==== Proof.KernelIdeal.Oblig1.lean ====
import proofs.«160318_j35888746725725_1_alg».proof.Proof.KernelIdeal.Layer1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body obligation of pallas_call 1

At every grid point the pipeline hands the body its five current staging buffers — the four inputs at their tiles,
the output at whatever it holds — and the invariant; the body returns the inputs as they were, the scratch one
step further, and, at the points with `k = 15`, the output buffer at the finished tile. -/

section Region
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_in (c : Dev nD) (t : Fin cfg1.N) (w : Fin cfg1.W) (hw : cfg1.idle w (grid1.coords t) = false) :
    (dat1 V c).leavesExact w t = owns (c : Thread nD τ) ((cfg1.win w).stage (cfg1.slots t w)) fullShare ((dat1 V c).after w t) := by
  unfold Dat.leavesExact; rw [hw]

theorem Phi1_succ (c : Dev nD) (t : Fin cfg1.N) :
    (dat1 V c).Φ t.succ = iprop((∃ X, ⌜X = sum1 V c t.val t.isLt⌝ ∗ owns (c : Thread nD τ) scM1 fullShare X)
      ∗ idleBufs1 (F := F) c ∗ (∃ r, prngReg c r)) := by
  show Phi1 V c t.succ = _
  unfold Phi1
  congr 2
  funext X
  congr 2
  exact propext ⟨fun h => h (Nat.succ_ne_zero _), fun h _ => h⟩

set_option maxHeartbeats 4000000 in
/-- The body at any point, by the three cases of the contraction coordinate. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [Phi1_succ]
  rw [leaves1_in V c t 0 rfl, leaves1_in V c t 1 rfl, leaves1_in V c t 2 rfl, leaves1_in V c t 3 rfl,
    after1_0, after1_1, after1_2, after1_3]
  rw [show (dat1 V c).Φ t.castSucc = Phi1 V c t.castSucc from rfl]
  unfold Phi1
  by_cases h0 : t.val % 16 = 0
  · -- the first contraction tile: the sum restarts
    have h1 : ¬ t.val % 16 = 15 := by omega
    rw [Dat.leavesExact_idle (dat1 V c) 4 t (idleAt1_4 t h1) (noFlush1_4 t h1)]
    rw [sum1_first V c t h0]
    iintro ⟨⟨⟨%X, -, HS⟩, Hi, Hg⟩, Ho, ⟨%d0, H0⟩, ⟨%d1, H1⟩, ⟨%d2, H2⟩, ⟨%d3, H3⟩, H4⟩
    iapply (step1_first c Set.univ (grid1.coords t) _ _ _ _ _ _ _ _ _ _ _ _ ((hcond1_0 t).mpr h0) (fun h => h1 ((hcond1_1 t).mp h)) (adjT1 V c t) (featT1 V c t) (wT1 V c t) _)
    isplitl [H0]; · iexact H0
    isplitl [H1]; · iexact H1
    isplitl [H2]; · iexact H2
    isplitl [HS]; · iexists _; iexact HS
    iintro ⟨H0, H1, H2, HS⟩
    isplitl [HS Hi Hg]
    · isplitl [HS]
      · iexists _; isplitr; · ipureintro; rfl
        iexact HS
      isplitl [Hi]; · iexact Hi
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [sum1_next V c t h0]
    by_cases h1 : t.val % 16 = 15
    · -- the last contraction tile: the output tile is written
      rw [leaves1_in V c t 4 (liveAt1_4 t h1), after1_4]
      unfold out1
      rw [sum1_next V c t h0]
      iintro ⟨⟨⟨%X, %hX, HS⟩, Hi, Hg⟩, Ho, ⟨%d0, H0⟩, ⟨%d1, H1⟩, ⟨%d2, H2⟩, ⟨%d3, H3⟩, ⟨%d4, H4⟩⟩
      obtain rfl := hX hz
      iapply (step1_last c Set.univ (grid1.coords t) _ _ _ _ _ _ _ _ _ _ _ _ (fun h => h0 ((hcond1_0 t).mp h)) ((hcond1_1 t).mpr h1) (adjT1 V c t) (featT1 V c t) (wT1 V c t) (bT1 V c t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hi Hg]
      · isplitl [HS]
        · iexists _; isplitr; · ipureintro; rfl
          iexact HS
        isplitl [Hi]; · iexact Hi
        iexact Hg
      isplitl [Ho]; · iexact Ho
      isplitl [H0]; · iexact H0
      isplitl [H1]; · iexact H1
      isplitl [H2]; · iexact H2
      isplitl [H3]; · iexact H3
      iexact H4
    · -- a middle contraction tile
      rw [Dat.leavesExact_idle (dat1 V c) 4 t (idleAt1_4 t h1) (noFlush1_4 t h1)]
      iintro ⟨⟨⟨%X, %hX, HS⟩, Hi, Hg⟩, Ho, ⟨%d0, H0⟩, ⟨%d1, H1⟩, ⟨%d2, H2⟩, ⟨%d3, H3⟩, H4⟩
      obtain rfl := hX hz
      iapply (step1_middle c Set.univ (grid1.coords t) _ _ _ _ _ _ _ _ _ _ _ _ (fun h => h0 ((hcond1_0 t).mp h)) (fun h => h1 ((hcond1_1 t).mp h)) (adjT1 V c t) (featT1 V c t) (wT1 V c t) _ _)
      isplitl [H0]; · iexact H0
      isplitl [H1]; · iexact H1
      isplitl [H2]; · iexact H2
      isplitl [HS]; · iexact HS
      iintro ⟨H0, H1, H2, HS⟩
      isplitl [HS Hi Hg]
      · isplitl [HS]
        · iexists _; isplitr; · ipureintro; rfl
          iexact HS
        isplitl [Hi]; · iexact Hi
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 from rfl, PhiA1_eq]
  unfold Phi1
  iintro ⟨⟨⟨%d, HS⟩, Hi⟩, Hg⟩
  isplitl [HS]
  · iexists d; isplitr; · ipureintro; exact fun h => absurd rfl h
    iexact HS
  isplitl [Hi]; · iexact Hi
  iexact Hg

/-- After the last point the invariant gives the class's back: what the scratch holds is forgotten. -/
theorem hout1 (c : Dev nD) : (dat1 V c).Φ (Fin.last cfg1.N) ⊢ Pipeline.ΦA spec1 c := by
  rw [show (dat1 V c).Φ (Fin.last cfg1.N) = Phi1 V c (Fin.last cfg1.N) from rfl, PhiA1_eq]
  unfold Phi1
  iintro ⟨⟨%X, -, HS⟩, Hi, Hg⟩
  isplitl [HS Hi]
  · isplitl [HS]; · iexists X; iexact HS
    iexact Hi
  iexact Hg

end Region

end Cert.KernelIdeal.Gen
end
-- ==== Proof.KernelIdeal.Run.lean ====
import proofs.«160318_j35888746725725_1_alg».proof.Proof.KernelIdeal.Oblig0
import proofs.«160318_j35888746725725_1_alg».proof.Proof.KernelIdeal.Oblig1
import proofs.«160318_j35888746725725_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: host stretch, pallas_call 0, host stretch, pallas_call 1, host stretch

The contents of every unscoped buffer are followed through @main as a fold: the launch memory, the first reshape,
what the first layer's region leaves, the second reshape, what the second region leaves, the linear head.  Every weakly
fair execution terminates, and every unscoped buffer ends at the last fold. -/

variable (m : (ℓ : Loc nD τ sig) → Buf (Elt F) ℓ) (ρ : Dev nD → PrngReg)

/-- Core `c`'s buffers at launch. -/
abbrev W0 : Dev nD → Valuation τ sig (Elt F) := fun c b => m (c, b)
/-- After the first host stretch (the first bias as a row). -/
abbrev W1 : Dev nD → Valuation τ sig (Elt F) := fun c => StableHlo.after hostOps0 (W0 m c)
/-- The same read at the TensorCore's references: what pallas_call 0 is entered from. -/
abbrev E1 : (c : Dev nD) → (b : Ref sig .tc) → Buf (Elt F) ((c : Thread nD τ).loc b) := fun c b => W1 m c b

/-- At pallas_call 0's exit: its arrays at what the pipeline leaves (the inputs as entered, the output with its
    written-back tiles), every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input array of the region is not changed by it. -/
theorem W2_input (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hw _).trans (A_eq0 (E1 m) c w))
theorem hF0 (c : Dev nD) (w : Fin cfg0.W) : (dat0 (E1 m) c).arrAt w cfg0.N = W2 m c (Pipeline.arrRef spec0 w) :=
  (W2_arr m c w).symm
theorem hrest0 (c : Dev nD) : ∀ b, b ∉ Finset.univ.image (Pipeline.arrRef spec0) → W2 m c b = E1 m c b :=
  fun b hb => W2_of_ne m c b fun w e => hb (Finset.mem_image.mpr ⟨w, Finset.mem_univ _, e⟩)

/-- After the second host stretch (the second bias as a row). -/
abbrev W3 : Dev nD → Valuation τ sig (Elt F) := fun c => StableHlo.after hostOps1 (W2 m c)
/-- What pallas_call 1 is entered from. -/
abbrev E3 : (c : Dev nD) → (b : Ref sig .tc) → Buf (Elt F) ((c : Thread nD τ).loc b) := fun c b => W3 m c b

/-- At pallas_call 1's exit: its arrays at what the pipeline leaves (the inputs as entered, the output with its
    written-back tiles), every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- An input array of the region is not changed by it. -/
theorem W4_input (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (E3 m) c).arrAt_in w hw _).trans (A_eq1 (E3 m) c w))
theorem hF1 (c : Dev nD) (w : Fin cfg1.W) : (dat1 (E3 m) c).arrAt w cfg1.N = W4 m c (Pipeline.arrRef spec1 w) :=
  (W4_arr m c w).symm
theorem hrest1 (c : Dev nD) : ∀ b, b ∉ Finset.univ.image (Pipeline.arrRef spec1) → W4 m c b = E3 m c b :=
  fun b hb => W4_of_ne m c b fun w e => hb (Finset.mem_image.mpr ⟨w, Finset.mem_univ _, e⟩)

/-- After the last host stretch (the linear head): the contents at the return. -/
abbrev W5 : Dev nD → Valuation τ sig (Elt F) := fun c => StableHlo.after hostOps2 (W4 m c)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
/-- A host stretch as a segment over all the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

-- a library lemma stated over a pinned configuration unifies with the printed one only when unification may unfold
-- plain definitions in a metavariable's type
set_option backward.isDefEq.respectTransparency.types false in
/-- pallas_call 0 over the thread state: entered with every unscoped buffer at `W1`, left with them at `W2`.
    Its five arrays are split out of the unscoped buffers at entry and put back at the exit contents; the generator
    register goes into the region's invariant and comes back; nothing is owed; the kernel has no semaphore of its own. -/
def regionSeg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (E1 m) c
    unfold Pipeline.ΦA at h
    rw [show (pdats m 0 c).Φ 0 = (dat0 (E1 m) c).Φ 0 from rfl]
    iintro ⟨Hp, -, Hr⟩
    iapply h
    isplitl [Hr]; · iexact Hr
    iexact Hp
  hout c := by
    rw [Pipeline.ownSems0_none]
    have h := hout0 (E1 m) c
    unfold Pipeline.ΦA at h
    rw [show (pdats m 0 c).Φ (Fin.last _) = (dat0 (E1 m) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- pallas_call 1 over the thread state: entered with every unscoped buffer at `W3`, left with them at `W4`.
    Its five arrays are split out of the unscoped buffers at entry and put back at the exit contents; the generator
    register goes into the region's invariant and comes back; nothing is owed; the kernel has no semaphore of its own. -/
def regionSeg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (E3 m) c
    unfold Pipeline.ΦA at h
    rw [show (pdats m 1 c).Φ 0 = (dat1 (E3 m) c).Φ 0 from rfl]
    iintro ⟨Hp, -, Hr⟩
    iapply h
    isplitl [Hr]; · iexact Hr
    iexact Hp
  hout c := by
    rw [Pipeline.ownSems0_none]
    have h := hout1 (E3 m) c
    unfold Pipeline.ΦA at h
    rw [show (pdats m 1 c).Φ (Fin.last _) = (dat1 (E3 m) c).Φ (Fin.last cfg1.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev mainSegs : List (Pipeline.Seg (pcfgs (F := F)) adm (pdats m) () defs₀ 𝒱₀ L lv) :=
  [ .host (hseg hostOps0 hostOps0_sub hostOps0_fresh (W0 m)),
    .region (regionSeg0 m),
    .host (hseg hostOps1 hostOps1_sub hostOps1_fresh (W2 m)),
    .region (regionSeg1 m),
    .host (hseg hostOps2 hostOps2_sub hostOps2_fresh (W4 m)) ]
/-- @main IS the run of the segments. -/
theorem main_run (c : Dev nD) : main (F := F) c = Pipeline.Seg.run (mainSegs m) := (main_chain c).trans (by chain_rfl)

set_option backward.isDefEq.respectTransparency.types false in
/-- THE RUN: from any memory with zero counters every weakly fair execution of @main terminates, nothing faulting, and
    every unscoped buffer ends at the last fold `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Gen
end
-- ==== Proof.KernelIdeal.Args.lean ====
import proofs.«160318_j35888746725725_1_alg».proof.Proof.KernelIdeal.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The argument arrays end as launched

Walking the fold of @main back from the return to the launch at an argument's buffer: the host stretches write only
their own results, and a region changes only its output array. -/

variable (m : (ℓ : Loc nD τ sig) → Buf (Elt F) ℓ) (ρ : Dev nD → PrngReg)

/-- `main_arg0` ends as launched: no host stretch writes it and no region changes it. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 (W4 m c) hostOps2_writes (r := main_arg0) (by decide)
    _ = W3 m c (Proc.devRef .tc main_arg0) := W4_of_ne m c main_arg0 (by decide)
    _ = W2 m c (Proc.devRef .tc main_arg0) := StableHlo.after_of_writes_sub hostOps1 (W2 m c) hostOps1_writes (r := main_arg0) (by decide)
    _ = W1 m c (Proc.devRef .tc main_arg0) := W2_input m c 1 rfl
    _ = W0 m c (Proc.devRef .tc main_arg0) := StableHlo.after_of_writes_sub hostOps0 (W0 m c) hostOps0_writes (r := main_arg0) (by decide)
    _ = m ((c : Thread nD τ).loc main_arg0) := rfl

/-- `main_arg1` ends as launched: no host stretch writes it and no region changes it. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 (W4 m c) hostOps2_writes (r := main_arg1) (by decide)
    _ = W3 m c (Proc.devRef .tc main_arg1) := W4_input m c 0 rfl
    _ = W2 m c (Proc.devRef .tc main_arg1) := StableHlo.after_of_writes_sub hostOps1 (W2 m c) hostOps1_writes (r := main_arg1) (by decide)
    _ = W1 m c (Proc.devRef .tc main_arg1) := W2_input m c 0 rfl
    _ = W0 m c (Proc.devRef .tc main_arg1) := StableHlo.after_of_writes_sub hostOps0 (W0 m c) hostOps0_writes (r := main_arg1) (by decide)
    _ = m ((c : Thread nD τ).loc main_arg1) := rfl

/-- `main_arg2` ends as launched: no host stretch writes it and no region changes it. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 (W4 m c) hostOps2_writes (r := main_arg2) (by decide)
    _ = W3 m c (Proc.devRef .tc main_arg2) := W4_of_ne m c main_arg2 (by decide)
    _ = W2 m c (Proc.devRef .tc main_arg2) := StableHlo.after_of_writes_sub hostOps1 (W2 m c) hostOps1_writes (r := main_arg2) (by decide)
    _ = W1 m c (Proc.devRef .tc main_arg2) := W2_input m c 2 rfl
    _ = W0 m c (Proc.devRef .tc main_arg2) := StableHlo.after_of_writes_sub hostOps0 (W0 m c) hostOps0_writes (r := main_arg2) (by decide)
    _ = m ((c : Thread nD τ).loc main_arg2) := rfl

/-- `main_arg3` ends as launched: no host stretch writes it and no region changes it. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 (W4 m c) hostOps2_writes (r := main_arg3) (by decide)
    _ = W3 m c (Proc.devRef .tc main_arg3) := W4_of_ne m c main_arg3 (by decide)
    _ = W2 m c (Proc.devRef .tc main_arg3) := StableHlo.after_of_writes_sub hostOps1 (W2 m c) hostOps1_writes (r := main_arg3) (by decide)
    _ = W1 m c (Proc.devRef .tc main_arg3) := W2_of_ne m c main_arg3 (by decide)
    _ = W0 m c (Proc.devRef .tc main_arg3) := StableHlo.after_of_writes_sub hostOps0 (W0 m c) hostOps0_writes (r := main_arg3) (by decide)
    _ = m ((c : Thread nD τ).loc main_arg3) := rfl

/-- `main_arg4` ends as launched: no host stretch writes it and no region changes it. -/
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 (W4 m c) hostOps2_writes (r := main_arg4) (by decide)
    _ = W3 m c (Proc.devRef .tc main_arg4) := W4_input m c 2 rfl
    _ = W2 m c (Proc.devRef .tc main_arg4) := StableHlo.after_of_writes_sub hostOps1 (W2 m c) hostOps1_writes (r := main_arg4) (by decide)
    _ = W1 m c (Proc.devRef .tc main_arg4) := W2_of_ne m c main_arg4 (by decide)
    _ = W0 m c (Proc.devRef .tc main_arg4) := StableHlo.after_of_writes_sub hostOps0 (W0 m c) hostOps0_writes (r := main_arg4) (by decide)
    _ = m ((c : Thread nD τ).loc main_arg4) := rfl

/-- `main_arg5` ends as launched: no host stretch writes it and no region changes it. -/
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 (W4 m c) hostOps2_writes (r := main_arg5) (by decide)
    _ = W3 m c (Proc.devRef .tc main_arg5) := W4_of_ne m c main_arg5 (by decide)
    _ = W2 m c (Proc.devRef .tc main_arg5) := StableHlo.after_of_writes_sub hostOps1 (W2 m c) hostOps1_writes (r := main_arg5) (by decide)
    _ = W1 m c (Proc.devRef .tc main_arg5) := W2_of_ne m c main_arg5 (by decide)
    _ = W0 m c (Proc.devRef .tc main_arg5) := StableHlo.after_of_writes_sub hostOps0 (W0 m c) hostOps0_writes (r := main_arg5) (by decide)
    _ = m ((c : Thread nD τ).loc main_arg5) := rfl

/-- `main_arg6` ends as launched: no host stretch writes it and no region changes it. -/
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 (W4 m c) hostOps2_writes (r := main_arg6) (by decide)
    _ = W3 m c (Proc.devRef .tc main_arg6) := W4_of_ne m c main_arg6 (by decide)
    _ = W2 m c (Proc.devRef .tc main_arg6) := StableHlo.after_of_writes_sub hostOps1 (W2 m c) hostOps1_writes (r := main_arg6) (by decide)
    _ = W1 m c (Proc.devRef .tc main_arg6) := W2_of_ne m c main_arg6 (by decide)
    _ = W0 m c (Proc.devRef .tc main_arg6) := StableHlo.after_of_writes_sub hostOps0 (W0 m c) hostOps0_writes (r := main_arg6) (by decide)
    _ = m ((c : Thread nD τ).loc main_arg6) := rfl

/-- `main_arg7` ends as launched: no host stretch writes it and no region changes it. -/
theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 (W4 m c) hostOps2_writes (r := main_arg7) (by decide)
    _ = W3 m c (Proc.devRef .tc main_arg7) := W4_of_ne m c main_arg7 (by decide)
    _ = W2 m c (Proc.devRef .tc main_arg7) := StableHlo.after_of_writes_sub hostOps1 (W2 m c) hostOps1_writes (r := main_arg7) (by decide)
    _ = W1 m c (Proc.devRef .tc main_arg7) := W2_of_ne m c main_arg7 (by decide)
    _ = W0 m c (Proc.devRef .tc main_arg7) := StableHlo.after_of_writes_sub hostOps0 (W0 m c) hostOps0_writes (r := main_arg7) (by decide)
    _ = m ((c : Thread nD τ).loc main_arg7) := rfl

/-- THE FRAME: every weakly fair execution terminates, nothing faulting, and the eight argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c)⟩) (run_main m ρ)

end Cert.KernelIdeal.Gen
end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.KernelIdeal.Tile0.lean ====
/-
  One step of pallas_call 0's body read at an entry, over the extended reals: the zero fill, the running-sum
  update `a + A_tile · (X_tile · W)`, and the output tile `max (a + b, 0)`.  A change of float format is the identity, a
  matrix product into the zero accumulator is the plain sum over the contraction position.
-/
import proofs.«160318_j35888746725725_1_alg».proof.Proof.KernelIdeal.Step0
import proofs.«160318_j35888746725725_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile0

open Idealize.ShloMosaic Idealize.ShloMosaic.ValueIdx Cert.KernelIdeal Cert.KernelIdeal.Gen

/-- The zero fill is zero at every entry. -/
theorem zero_apply (i : S2048x128.Idx) : k0_pay1 (F := Ideal) i = 0 := by
  unfold k0_pay1
  rw [shapeCast_self]
  exact Ideal.ofBits_zero_f32

/-- The running-sum update at entry `(p, q)`. -/
theorem stepSum_apply (x2 : Vec Ideal S2048x1024 .f32) (x3 : Vec Ideal S1024x128 .f32) (x4 : Vec Ideal S128x128 .f32) (a : Vec Ideal S2048x128 .f32)
    (p : Fin 2048) (q : Fin 128) :
    stepSum0 (F := Ideal) x2 x3 x4 a (ix2 p q)
      = a (ix2 p q) + ∑ kk : Fin 1024, x2 (ix2 p kk) * ∑ j : Fin 128, x3 (ix2 kk j) * x4 (ix2 j q) := by
  have e1 : dot_S1024x128_S128x128_S1024x128_1_0_0_1_n_n = DotDims.plain 1024 128 128 := rfl
  have e2 : dot_S2048x1024_S1024x128_S2048x128_1_0_0_1_n_n = DotDims.plain 2048 1024 128 := rfl
  show k0_pay2 (F := Ideal) x3 x4 x2 a (ix2 p q) = _
  unfold k0_pay2
  simp only [shapeCast_self]
  rw [e1, e2]
  refine congrArg (a (ix2 p q) + ·) ?_
  refine (Cert.Lib.PlainDot.matmul_zero_apply none _ _ p q).trans ?_
  refine Finset.sum_congr rfl fun kk _ => ?_
  refine congrArg (x2 (ix2 p kk) * ·) ?_
  exact Cert.Lib.PlainDot.matmul_zero_apply none _ _ kk q

/-- The output tile at entry `(p, q)`. -/
theorem outTile_apply (a : Vec Ideal S2048x128 .f32) (x5 : Vec Ideal S1x128 .f32) (p : Fin 2048) (q : Fin 128) :
    outTile0 (F := Ideal) a x5 (ix2 p q) = max (a (ix2 p q) + x5 (ix2 (0 : Fin 1) q)) 0 := by
  show k0_pay3 (F := Ideal) a x5 (ix2 p q) = _
  unfold k0_pay3
  rw [shapeCast_self]
  show max (a (ix2 p q) + broadcastTo S2048x128 x5 broadcasts_S1x128_S2048x128 (ix2 p q)) (Ideal.ofBits .f32 0x00000000#32) = _
  rw [broadcastTo_1b_ab_apply, Ideal.ofBits_zero_f32]

end Cert.KernelIdeal.Tile0

end
-- ==== Proof.Spec.lean ====
/-
  The mathematics of the two-layer graph network, over the extended reals, index by index.

  One layer is `relu (A · (X · W) + b)`: entry `(p, q)` is `max (∑ k, A[p,k] · (∑ j, X[k,j] · W[j,q]) + b[q]) 0`.
  The network is two layers followed by the linear head `H · W₃ + b₃`.
  A sum over the 16384 contraction positions may be taken tile by tile, 16 tiles of 1024: addition of extended
  reals is associative and commutative, so no finiteness is needed.
-/
import Idealize.ShloMosaic.Lib.ValueIdx
import Idealize.ShloMosaic.PureOps.Ideal
import Mathlib.Algebra.BigOperators.Fin

noncomputable section

namespace Cert.Spec

open Idealize.ShloMosaic Idealize.ShloMosaic.ValueIdx

abbrev SNN : Shape := ⟨2, ![16384, 16384]⟩
abbrev SNH : Shape := ⟨2, ![16384, 128]⟩
abbrev SHH : Shape := ⟨2, ![128, 128]⟩
abbrev SH : Shape := ⟨1, ![128]⟩
abbrev SHO : Shape := ⟨2, ![128, 2]⟩
abbrev SO : Shape := ⟨1, ![2]⟩
abbrev SNO : Shape := ⟨2, ![16384, 2]⟩

/-- The projected feature row: `(X · W)[k, q]`. -/
def proj (X : SNH.Idx → EReal) (W : SHH.Idx → EReal) (k : Fin 16384) (q : Fin 128) : EReal :=
  ∑ j : Fin 128, X (ix2 k j) * W (ix2 j q)

/-- The aggregate before the bias: `(A · (X · W))[p, q]`. -/
def agg (A : SNN.Idx → EReal) (X : SNH.Idx → EReal) (W : SHH.Idx → EReal) (p : Fin 16384) (q : Fin 128) : EReal :=
  ∑ k : Fin 16384, A (ix2 p k) * proj X W k q

/-- One layer at entry `(p, q)`. -/
def layerAt (A : SNN.Idx → EReal) (X : SNH.Idx → EReal) (W : SHH.Idx → EReal) (b : SH.Idx → EReal) (p : Fin 16384) (q : Fin 128) : EReal :=
  max (agg A X W p q + b (ix1 q)) 0

/-- One layer as an array. -/
def layer (A : SNN.Idx → EReal) (X : SNH.Idx → EReal) (W : SHH.Idx → EReal) (b : SH.Idx → EReal) : SNH.Idx → EReal :=
  fun i => layerAt A X W b (i 0) (i 1)

theorem layer_apply (A : SNN.Idx → EReal) (X : SNH.Idx → EReal) (W : SHH.Idx → EReal) (b : SH.Idx → EReal) (p : Fin 16384) (q : Fin 128) :
    layer A X W b (ix2 p q) = layerAt A X W b p q := rfl

/-- The linear head at entry `(p, o)`. -/
def headAt (H : SNH.Idx → EReal) (W3 : SHO.Idx → EReal) (b3 : SO.Idx → EReal) (p : Fin 16384) (o : Fin 2) : EReal :=
  (∑ j : Fin 128, H (ix2 p j) * W3 (ix2 j o)) + b3 (ix1 o)

def head (H : SNH.Idx → EReal) (W3 : SHO.Idx → EReal) (b3 : SO.Idx → EReal) : SNO.Idx → EReal :=
  fun i => headAt H W3 b3 (i 0) (i 1)

/-- The whole network. -/
def net (x : SNH.Idx → EReal) (adj : SNN.Idx → EReal) (w1 : SHH.Idx → EReal) (b1 : SH.Idx → EReal) (w2 : SHH.Idx → EReal) (b2 : SH.Idx → EReal)
    (w3 : SHO.Idx → EReal) (b3 : SO.Idx → EReal) : SNO.Idx → EReal :=
  head (layer adj (layer adj x w1 b1) w2 b2) w3 b3

/-- Contraction position `1024 · kb + kk` of tile `kb`. -/
def tilePos (kb : Fin 16) (kk : Fin 1024) : Fin 16384 := ⟨1024 * kb.val + kk.val, by have := kb.isLt; have := kk.isLt; omega⟩

/-- The part of the aggregate that contraction tile `kb` contributes. -/
def aggTile (A : SNN.Idx → EReal) (X : SNH.Idx → EReal) (W : SHH.Idx → EReal) (p : Fin 16384) (q : Fin 128) (kb : Fin 16) : EReal :=
  ∑ kk : Fin 1024, A (ix2 p (tilePos kb kk)) * proj X W (tilePos kb kk) q

/-- The running sum after tiles `0 … n`: from zero, one tile's part added at a time. -/
def runSum (A : SNN.Idx → EReal) (X : SNH.Idx → EReal) (W : SHH.Idx → EReal) (p : Fin 16384) (q : Fin 128) : (n : ℕ) → n < 16 → EReal
  | 0, h => 0 + aggTile A X W p q ⟨0, h⟩
  | n + 1, h => runSum A X W p q n (Nat.lt_of_succ_lt h) + aggTile A X W p q ⟨n + 1, h⟩

/-- The running sum after tiles `0 … n` is the sum of the parts of those tiles. -/
theorem runSum_eq_sum (A : SNN.Idx → EReal) (X : SNH.Idx → EReal) (W : SHH.Idx → EReal) (p : Fin 16384) (q : Fin 128) :
    ∀ (n : ℕ) (h : n < 16), runSum A X W p q n h
      = ∑ kb : Fin (n + 1), aggTile A X W p q ⟨kb.val, lt_of_lt_of_le kb.isLt (Nat.succ_le_of_lt h)⟩
  | 0, h => by
    rw [Fin.sum_univ_one]
    show 0 + aggTile A X W p q ⟨0, h⟩ = _
    rw [zero_add]
    rfl
  | n + 1, h => by
    rw [Fin.sum_univ_castSucc]
    show runSum A X W p q n (Nat.lt_of_succ_lt h) + aggTile A X W p q ⟨n + 1, h⟩ = _
    rw [runSum_eq_sum A X W p q n (Nat.lt_of_succ_lt h)]
    rfl

/-- A sum over the 16384 positions, taken as 16 tiles of 1024 (any commutative additive monoid). -/
theorem sum_tilePos {M : Type*} [AddCommMonoid M] (f : Fin 16384 → M) :
    ∑ kb : Fin 16, ∑ kk : Fin 1024, f (tilePos kb kk) = ∑ K : Fin 16384, f K := by
  rw [← Fintype.sum_prod_type']
  refine Fintype.sum_equiv (finProdFinEquiv (m := 16) (n := 1024)) _ _ (fun x => ?_)
  congr 1
  apply Fin.ext
  show 1024 * x.1.val + x.2.val = x.2.val + 1024 * x.1.val
  exact Nat.add_comm _ _

/-- THE TILING LAW: the running sum after the last tile is the whole aggregate. -/
theorem runSum_last (A : SNN.Idx → EReal) (X : SNH.Idx → EReal) (W : SHH.Idx → EReal) (p : Fin 16384) (q : Fin 128) :
    runSum A X W p q 15 (by omega) = agg A X W p q := by
  rw [runSum_eq_sum A X W p q 15 (by omega)]
  show ∑ kb : Fin 16, ∑ kk : Fin 1024, A (ix2 p (tilePos kb kk)) * proj X W (tilePos kb kk) q = _
  exact sum_tilePos (fun K => A (ix2 p K) * proj X W K q)

end Cert.Spec

end
-- ==== Proof.KernelIdeal.Final0.lean ====
/-
  What pallas_call 0 leaves in its output array, over the extended reals: one layer of the network,
  `max (A · (X · W) + b, 0)`, of the arrays the region is entered from.

  Row tile `i` is written back at the grid point `16 i + 15`.  Along `k = 0 … 15` the running sum at entry
  `(p, q)` of that tile is the sum of the first `k + 1` tile parts of the aggregate at row `2048 i + p`; after the last
  tile it is the whole aggregate (the tiling law), and the output tile adds the bias and clamps at zero.
-/
import proofs.«160318_j35888746725725_1_alg».proof.Proof.KernelIdeal.Layer0
import proofs.«160318_j35888746725725_1_alg».proof.Proof.KernelIdeal.Tile0
import proofs.«160318_j35888746725725_1_alg».proof.Proof.Spec
import Idealize.ShloMosaic.Lib.Pipeline.Value
import Idealize.ShloMosaic.Lib.ValueIdx

set_option maxRecDepth 16384

noncomputable section

namespace Cert.KernelIdeal.Final0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The adjacency, the features, the weight and the bias row the region is entered from, at their literal types. -/
abbrev adjArr (c : Dev nD) : Spec.SNN.Idx → EReal := V c (Pipeline.arrRef spec0 0)
abbrev featArr (c : Dev nD) : Spec.SNH.Idx → EReal := V c (Pipeline.arrRef spec0 1)
abbrev wArr (c : Dev nD) : Spec.SHH.Idx → EReal := V c (Pipeline.arrRef spec0 2)
abbrev biasArr (c : Dev nD) : (⟨2, ![1, 128]⟩ : Shape).Idx → EReal := V c (Pipeline.arrRef spec0 3)

/-! ## The index maps over the grid, and a tile's entry as the array's -/

/-- The printed index maps, decided over the grid: point `t` is row tile `t / 16`, contraction tile `t % 16`. -/
theorem idx_facts : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 16 ∧ win0_4.index t (1 : Fin 2) = 0 :=
  (by decide +kernel : ∀ t : Fin grid0.N, _)

/-- Row `2048 (t / 16) + p` of the arrays: the row of tile `t / 16` at local row `p`. -/
def rowOf (t : Fin cfg0.N) (p : Fin 2048) : Fin 16384 :=
  ⟨2048 * (t.val / 16) + p.val, by have := t.isLt; have := p.isLt; have : cfg0.N = 128 := rfl; omega⟩

/-- The contraction tile of point `t`. -/
def tileOf (t : Fin cfg0.N) : Fin 16 := ⟨t.val % 16, Nat.mod_lt _ (by decide)⟩

/-- The adjacency tile's entry is the adjacency's, at the tile's row and contraction position. -/
theorem adjT_apply (c : Dev nD) (t : Fin cfg0.N) (p : Fin 2048) (kk : Fin 1024) :
    adjT0 V c t (ix2 p kk) = adjArr V c (ix2 (rowOf t p) (Spec.tilePos (tileOf t) kk)) := by
  obtain ⟨e0, e1, -⟩ := idx_facts t
  show iblk0 V c 0 t (ix2 p kk) = _
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 2048 + 1 * p.val = 2048 * (t.val / 16) + p.val; omega
  | ⟨1, _⟩ => show win0_0.index t (1 : Fin 2) * 1024 + 1 * kk.val = 1024 * (t.val % 16) + kk.val; omega

/-- The feature tile's entry is the features', at the tile's contraction position. -/
theorem featT_apply (c : Dev nD) (t : Fin cfg0.N) (kk : Fin 1024) (j : Fin 128) :
    featT0 V c t (ix2 kk j) = featArr V c (ix2 (Spec.tilePos (tileOf t) kk) j) := by
  obtain ⟨-, -, e0, e1, -⟩ := idx_facts t
  show iblk0 V c 1 t (ix2 kk j) = _
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 1024 + 1 * kk.val = 1024 * (t.val % 16) + kk.val; omega
  | ⟨1, _⟩ => show win0_1.index t (1 : Fin 2) * 128 + 1 * j.val = j.val; omega

/-- The weight tile is the weight. -/
theorem wT_apply (c : Dev nD) (t : Fin cfg0.N) (j : Fin 128) (q : Fin 128) :
    wT0 V c t (ix2 j q) = wArr V c (ix2 j q) := by
  obtain ⟨-, -, -, -, e0, e1, -⟩ := idx_facts t
  show iblk0 V c 2 t (ix2 j q) = _
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 128 + 1 * j.val = j.val; omega
  | ⟨1, _⟩ => show win0_2.index t (1 : Fin 2) * 128 + 1 * q.val = q.val; omega

/-- The bias tile is the bias row. -/
theorem bT_apply (c : Dev nD) (t : Fin cfg0.N) (q : Fin 128) :
    bT0 V c t (ix2 (0 : Fin 1) q) = biasArr V c (ix2 (0 : Fin 1) q) := by
  obtain ⟨-, -, -, -, -, -, e0, e1, -⟩ := idx_facts t
  show iblk0 V c 3 t (ix2 (0 : Fin 1) q) = _
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * (0 : Fin 1).val = (0 : Fin 1).val; omega
  | ⟨1, _⟩ => show win0_3.index t (1 : Fin 2) * 128 + 1 * q.val = q.val; omega

/-! ## The running sum along a row tile -/

/-- What one step adds at entry `(p, q)`: the part of the aggregate the point's contraction tile contributes. -/
theorem step_part (c : Dev nD) (t : Fin cfg0.N) (p : Fin 2048) (q : Fin 128) :
    (∑ kk : Fin 1024, adjT0 V c t (ix2 p kk) * ∑ j : Fin 128, featT0 V c t (ix2 kk j) * wT0 V c t (ix2 j q))
      = Spec.aggTile (adjArr V c) (featArr V c) (wArr V c) (rowOf t p) q (tileOf t) := by
  unfold Spec.aggTile Spec.proj
  refine Finset.sum_congr rfl fun kk _ => ?_
  rw [adjT_apply]
  congr 1
  refine Finset.sum_congr rfl fun j _ => ?_
  rw [featT_apply, wT_apply]

/-- THE INVARIANT: after the point with contraction tile `k` the running sum at `(p, q)` is the sum of the parts of
    tiles `0 … k` of the aggregate at the tile's row. -/
theorem sum_inv (c : Dev nD) : ∀ (n : ℕ) (hn : n < cfg0.N) (k : ℕ) (hk : k < 16), n % 16 = k →
    ∀ (p : Fin 2048) (q : Fin 128),
      sum0 V c n hn (ix2 p q)
        = Spec.runSum (adjArr V c) (featArr V c) (wArr V c) (rowOf ⟨n, hn⟩ p) q k hk := by
  intro n
  induction n with
  | zero =>
    intro hn k hk hnk p q
    obtain rfl : k = 0 := by omega
    refine (congrFun (sum0_first V c ⟨0, hn⟩ rfl) (ix2 p q)).trans ?_
    rw [Tile0.stepSum_apply, Tile0.zero_apply, step_part]
    rfl
  | succ m ih =>
    intro hn k hk hnk p q
    by_cases h0 : (m + 1) % 16 = 0
    · obtain rfl : k = 0 := by omega
      refine (congrFun (sum0_first V c ⟨m + 1, hn⟩ h0) (ix2 p q)).trans ?_
      rw [Tile0.stepSum_apply, Tile0.zero_apply, step_part]
      have et : tileOf ⟨m + 1, hn⟩ = ⟨0, hk⟩ := Fin.ext h0
      rw [et]
      rfl
    · obtain ⟨k', rfl⟩ : ∃ k', k = k' + 1 := ⟨k - 1, by omega⟩
      refine (congrFun (sum0_next V c ⟨m + 1, hn⟩ h0) (ix2 p q)).trans ?_
      rw [Tile0.stepSum_apply, step_part]
      have e := ih (Nat.lt_of_succ_lt hn) k' (by omega) (by omega) p q
      have er : rowOf ⟨m, Nat.lt_of_succ_lt hn⟩ p = rowOf ⟨m + 1, hn⟩ p := by
        apply Fin.ext; show 2048 * (m / 16) + p.val = 2048 * ((m + 1) / 16) + p.val; omega
      have et : tileOf ⟨m + 1, hn⟩ = ⟨k' + 1, hk⟩ := Fin.ext hnk
      rw [er] at e
      rw [et]
      show sum0 V c m _ (ix2 p q) + _ = _
      rw [e]
      rfl

/-! ## From the tiles to the array -/

/-- The bias as the layer takes it: a row indexed by the output column. -/
abbrev biasRow (c : Dev nD) : Spec.SH.Idx → EReal := fun i => biasArr V c (ix2 (0 : Fin 1) (i 0))

/-- The output tile a point with `k = 15` writes, at entry `(p, q)`: the layer at the tile's row. -/
theorem out_apply (c : Dev nD) (t : Fin cfg0.N) (h15 : t.val % 16 = 15) (p : Fin 2048) (q : Fin 128) :
    out0 V c t (ix2 p q)
      = Spec.layerAt (adjArr V c) (featArr V c) (wArr V c) (biasRow V c) (rowOf t p) q := by
  unfold out0
  rw [Tile0.outTile_apply, bT_apply, sum_inv V c t.val t.isLt 15 (by omega) h15 p q, Spec.runSum_last]
  rfl

/-- WHAT A FLUSHING POINT WRITES BACK is its block of the layer of the entry arrays. -/
theorem flushed_eq (c : Dev nD) (t : Fin cfg0.N) (hf : (cfg0.win 4).flush t = true) :
    (dat0 (F := Ideal) V c).flushed 4 t
      = ((cfg0.win 4).blk t).view.read (Elt Ideal)
          (Spec.layer (adjArr V c) (featArr V c) (wArr V c) (biasRow V c)) := by
  have h15 : t.val % 16 = 15 := (flush0_4 t).mp hf
  obtain ⟨-, -, -, -, -, -, -, -, e0, e1⟩ := idx_facts t
  show (cfg0.win 4).cut (grid0.coords t) ((dat0 (F := Ideal) V c).after 4 t) = _
  rw [after0_4]
  funext j
  obtain ⟨p, q, rfl⟩ : ∃ (p : Fin 2048) (q : Fin 128), j = ix2 p q := ⟨j 0, j 1, eq_ix2 j⟩
  rw [View.read_apply]
  show out0 V c t (ix2 p q)
    = Spec.layer (adjArr V c) (featArr V c) (wArr V c) (biasRow V c) (((cfg0.win 4).blk t).view.emb (ix2 p q))
  have hemb : ((cfg0.win 4).blk t).view.emb (ix2 p q) = ix2 (rowOf t p) q := by
    funext a
    apply Fin.ext
    match a with
    | ⟨0, _⟩ => show win0_4.index t (0 : Fin 2) * 2048 + 1 * p.val = 2048 * (t.val / 16) + p.val; omega
    | ⟨1, _⟩ => show win0_4.index t (1 : Fin 2) * 128 + 1 * q.val = q.val; omega
  rw [hemb, Spec.layer_apply]
  exact out_apply V c t h15 p q

/-- An index of the output array is in point `t`'s block iff each coordinate is in the block's range on its axis. -/
theorem mem_blk (t : Fin cfg0.N) (i : Spec.SNH.Idx) :
    i ∈ ((cfg0.win 4).blk t).view.set
      ↔ ∀ a : Fin 2, win0_4.index t a * S2048x128.size a ≤ (i a).val
          ∧ (i a).val < win0_4.index t a * S2048x128.size a + S2048x128.size a := by
  show i ∈ ((View.whole main_v1).slice (win0_4.rect t)).set ↔ _
  rw [View.set_slice_whole, Rect.mem_set_unit]
  exact Iff.rfl

/-- Every index of the output array lies in the block of a flushing point: row `r` in that of `16 (r / 2048) + 15`. -/
theorem cover (i : Spec.SNH.Idx) :
    ∃ t : Fin cfg0.N, (cfg0.win 4).flush t = true ∧ i ∈ ((cfg0.win 4).blk t).view.set := by
  have hi0 : (i 0).val < 16384 := (i 0).isLt
  have hi1 : (i 1).val < 128 := (i 1).isLt
  have hN : cfg0.N = 128 := rfl
  have ht : 16 * ((i 0).val / 2048) + 15 < cfg0.N := by omega
  obtain ⟨-, -, -, -, -, -, -, -, e0, e1⟩ := idx_facts ⟨16 * ((i 0).val / 2048) + 15, ht⟩
  have e0' : win0_4.index ⟨16 * ((i 0).val / 2048) + 15, ht⟩ (0 : Fin 2) = (16 * ((i 0).val / 2048) + 15) / 16 := e0
  refine ⟨⟨16 * ((i 0).val / 2048) + 15, ht⟩, (flush0_4 _).mpr (by show (16 * ((i 0).val / 2048) + 15) % 16 = 15; omega), ?_⟩
  rw [mem_blk]
  intro a
  match a with
  | ⟨0, _⟩ =>
    show win0_4.index ⟨16 * ((i 0).val / 2048) + 15, ht⟩ (0 : Fin 2) * 2048 ≤ (i 0).val
      ∧ (i 0).val < win0_4.index ⟨16 * ((i 0).val / 2048) + 15, ht⟩ (0 : Fin 2) * 2048 + 2048
    omega
  | ⟨1, _⟩ =>
    show win0_4.index ⟨16 * ((i 0).val / 2048) + 15, ht⟩ (1 : Fin 2) * 128 ≤ (i 1).val
      ∧ (i 1).val < win0_4.index ⟨16 * ((i 0).val / 2048) + 15, ht⟩ (1 : Fin 2) * 128 + 128
    omega

/-- THE OUTPUT ARRAY after the region: the layer of the entry arrays. -/
theorem final (c : Dev nD) :
    (dat0 (F := Ideal) V c).arrAt 4 cfg0.N
      = Spec.layer (adjArr V c) (featArr V c) (wArr V c) (fun i => biasArr V c (ix2 (0 : Fin 1) (i 0))) :=
  (dat0 (F := Ideal) V c).arrAt_eq_of_cover 4
    (Spec.layer (adjArr V c) (featArr V c) (wArr V c) (biasRow V c))
    (fun t hf => flushed_eq V c t hf) cover

end Cert.KernelIdeal.Final0

end
-- ==== Proof.KernelIdeal.Tile1.lean ====
/-
  One step of pallas_call 1's body read at an entry, over the extended reals: the zero fill, the running-sum
  update `a + A_tile · (X_tile · W)`, and the output tile `max (a + b, 0)`.  A change of float format is the identity, a
  matrix product into the zero accumulator is the plain sum over the contraction position.
-/
import proofs.«160318_j35888746725725_1_alg».proof.Proof.KernelIdeal.Step1
import proofs.«160318_j35888746725725_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile1

open Idealize.ShloMosaic Idealize.ShloMosaic.ValueIdx Cert.KernelIdeal Cert.KernelIdeal.Gen

/-- The zero fill is zero at every entry. -/
theorem zero_apply (i : S2048x128.Idx) : k1_pay1 (F := Ideal) i = 0 := by
  unfold k1_pay1
  rw [shapeCast_self]
  exact Ideal.ofBits_zero_f32

/-- The running-sum update at entry `(p, q)`. -/
theorem stepSum_apply (x2 : Vec Ideal S2048x1024 .f32) (x3 : Vec Ideal S1024x128 .f32) (x4 : Vec Ideal S128x128 .f32) (a : Vec Ideal S2048x128 .f32)
    (p : Fin 2048) (q : Fin 128) :
    stepSum1 (F := Ideal) x2 x3 x4 a (ix2 p q)
      = a (ix2 p q) + ∑ kk : Fin 1024, x2 (ix2 p kk) * ∑ j : Fin 128, x3 (ix2 kk j) * x4 (ix2 j q) := by
  have e1 : dot_S1024x128_S128x128_S1024x128_1_0_0_1_n_n = DotDims.plain 1024 128 128 := rfl
  have e2 : dot_S2048x1024_S1024x128_S2048x128_1_0_0_1_n_n = DotDims.plain 2048 1024 128 := rfl
  show k1_pay2 (F := Ideal) x3 x4 x2 a (ix2 p q) = _
  unfold k1_pay2
  simp only [shapeCast_self]
  rw [e1, e2]
  refine congrArg (a (ix2 p q) + ·) ?_
  refine (Cert.Lib.PlainDot.matmul_zero_apply none _ _ p q).trans ?_
  refine Finset.sum_congr rfl fun kk _ => ?_
  refine congrArg (x2 (ix2 p kk) * ·) ?_
  exact Cert.Lib.PlainDot.matmul_zero_apply none _ _ kk q

/-- The output tile at entry `(p, q)`. -/
theorem outTile_apply (a : Vec Ideal S2048x128 .f32) (x5 : Vec Ideal S1x128 .f32) (p : Fin 2048) (q : Fin 128) :
    outTile1 (F := Ideal) a x5 (ix2 p q) = max (a (ix2 p q) + x5 (ix2 (0 : Fin 1) q)) 0 := by
  show k1_pay3 (F := Ideal) a x5 (ix2 p q) = _
  unfold k1_pay3
  rw [shapeCast_self]
  show max (a (ix2 p q) + broadcastTo S2048x128 x5 broadcasts_S1x128_S2048x128 (ix2 p q)) (Ideal.ofBits .f32 0x00000000#32) = _
  rw [broadcastTo_1b_ab_apply, Ideal.ofBits_zero_f32]

end Cert.KernelIdeal.Tile1

end
-- ==== Proof.KernelIdeal.Final1.lean ====
/-
  What pallas_call 1 leaves in its output array, over the extended reals: one layer of the network,
  `max (A · (X · W) + b, 0)`, of the arrays the region is entered from.

  Row tile `i` is written back at the grid point `16 i + 15`.  Along `k = 0 … 15` the running sum at entry
  `(p, q)` of that tile is the sum of the first `k + 1` tile parts of the aggregate at row `2048 i + p`; after the last
  tile it is the whole aggregate (the tiling law), and the output tile adds the bias and clamps at zero.
-/
import proofs.«160318_j35888746725725_1_alg».proof.Proof.KernelIdeal.Layer1
import proofs.«160318_j35888746725725_1_alg».proof.Proof.KernelIdeal.Tile1
import proofs.«160318_j35888746725725_1_alg».proof.Proof.Spec
import Idealize.ShloMosaic.Lib.Pipeline.Value
import Idealize.ShloMosaic.Lib.ValueIdx

set_option maxRecDepth 16384

noncomputable section

namespace Cert.KernelIdeal.Final1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The adjacency, the features, the weight and the bias row the region is entered from, at their literal types. -/
abbrev adjArr (c : Dev nD) : Spec.SNN.Idx → EReal := V c (Pipeline.arrRef spec1 0)
abbrev featArr (c : Dev nD) : Spec.SNH.Idx → EReal := V c (Pipeline.arrRef spec1 1)
abbrev wArr (c : Dev nD) : Spec.SHH.Idx → EReal := V c (Pipeline.arrRef spec1 2)
abbrev biasArr (c : Dev nD) : (⟨2, ![1, 128]⟩ : Shape).Idx → EReal := V c (Pipeline.arrRef spec1 3)

/-! ## The index maps over the grid, and a tile's entry as the array's -/

/-- The printed index maps, decided over the grid: point `t` is row tile `t / 16`, contraction tile `t % 16`. -/
theorem idx_facts : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 16 ∧ win1_4.index t (1 : Fin 2) = 0 :=
  (by decide +kernel : ∀ t : Fin grid1.N, _)

/-- Row `2048 (t / 16) + p` of the arrays: the row of tile `t / 16` at local row `p`. -/
def rowOf (t : Fin cfg1.N) (p : Fin 2048) : Fin 16384 :=
  ⟨2048 * (t.val / 16) + p.val, by have := t.isLt; have := p.isLt; have : cfg1.N = 128 := rfl; omega⟩

/-- The contraction tile of point `t`. -/
def tileOf (t : Fin cfg1.N) : Fin 16 := ⟨t.val % 16, Nat.mod_lt _ (by decide)⟩

/-- The adjacency tile's entry is the adjacency's, at the tile's row and contraction position. -/
theorem adjT_apply (c : Dev nD) (t : Fin cfg1.N) (p : Fin 2048) (kk : Fin 1024) :
    adjT1 V c t (ix2 p kk) = adjArr V c (ix2 (rowOf t p) (Spec.tilePos (tileOf t) kk)) := by
  obtain ⟨e0, e1, -⟩ := idx_facts t
  show iblk1 V c 0 t (ix2 p kk) = _
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 2048 + 1 * p.val = 2048 * (t.val / 16) + p.val; omega
  | ⟨1, _⟩ => show win1_0.index t (1 : Fin 2) * 1024 + 1 * kk.val = 1024 * (t.val % 16) + kk.val; omega

/-- The feature tile's entry is the features', at the tile's contraction position. -/
theorem featT_apply (c : Dev nD) (t : Fin cfg1.N) (kk : Fin 1024) (j : Fin 128) :
    featT1 V c t (ix2 kk j) = featArr V c (ix2 (Spec.tilePos (tileOf t) kk) j) := by
  obtain ⟨-, -, e0, e1, -⟩ := idx_facts t
  show iblk1 V c 1 t (ix2 kk j) = _
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1024 + 1 * kk.val = 1024 * (t.val % 16) + kk.val; omega
  | ⟨1, _⟩ => show win1_1.index t (1 : Fin 2) * 128 + 1 * j.val = j.val; omega

/-- The weight tile is the weight. -/
theorem wT_apply (c : Dev nD) (t : Fin cfg1.N) (j : Fin 128) (q : Fin 128) :
    wT1 V c t (ix2 j q) = wArr V c (ix2 j q) := by
  obtain ⟨-, -, -, -, e0, e1, -⟩ := idx_facts t
  show iblk1 V c 2 t (ix2 j q) = _
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 128 + 1 * j.val = j.val; omega
  | ⟨1, _⟩ => show win1_2.index t (1 : Fin 2) * 128 + 1 * q.val = q.val; omega

/-- The bias tile is the bias row. -/
theorem bT_apply (c : Dev nD) (t : Fin cfg1.N) (q : Fin 128) :
    bT1 V c t (ix2 (0 : Fin 1) q) = biasArr V c (ix2 (0 : Fin 1) q) := by
  obtain ⟨-, -, -, -, -, -, e0, e1, -⟩ := idx_facts t
  show iblk1 V c 3 t (ix2 (0 : Fin 1) q) = _
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * (0 : Fin 1).val = (0 : Fin 1).val; omega
  | ⟨1, _⟩ => show win1_3.index t (1 : Fin 2) * 128 + 1 * q.val = q.val; omega

/-! ## The running sum along a row tile -/

/-- What one step adds at entry `(p, q)`: the part of the aggregate the point's contraction tile contributes. -/
theorem step_part (c : Dev nD) (t : Fin cfg1.N) (p : Fin 2048) (q : Fin 128) :
    (∑ kk : Fin 1024, adjT1 V c t (ix2 p kk) * ∑ j : Fin 128, featT1 V c t (ix2 kk j) * wT1 V c t (ix2 j q))
      = Spec.aggTile (adjArr V c) (featArr V c) (wArr V c) (rowOf t p) q (tileOf t) := by
  unfold Spec.aggTile Spec.proj
  refine Finset.sum_congr rfl fun kk _ => ?_
  rw [adjT_apply]
  congr 1
  refine Finset.sum_congr rfl fun j _ => ?_
  rw [featT_apply, wT_apply]

/-- THE INVARIANT: after the point with contraction tile `k` the running sum at `(p, q)` is the sum of the parts of
    tiles `0 … k` of the aggregate at the tile's row. -/
theorem sum_inv (c : Dev nD) : ∀ (n : ℕ) (hn : n < cfg1.N) (k : ℕ) (hk : k < 16), n % 16 = k →
    ∀ (p : Fin 2048) (q : Fin 128),
      sum1 V c n hn (ix2 p q)
        = Spec.runSum (adjArr V c) (featArr V c) (wArr V c) (rowOf ⟨n, hn⟩ p) q k hk := by
  intro n
  induction n with
  | zero =>
    intro hn k hk hnk p q
    obtain rfl : k = 0 := by omega
    refine (congrFun (sum1_first V c ⟨0, hn⟩ rfl) (ix2 p q)).trans ?_
    rw [Tile1.stepSum_apply, Tile1.zero_apply, step_part]
    rfl
  | succ m ih =>
    intro hn k hk hnk p q
    by_cases h0 : (m + 1) % 16 = 0
    · obtain rfl : k = 0 := by omega
      refine (congrFun (sum1_first V c ⟨m + 1, hn⟩ h0) (ix2 p q)).trans ?_
      rw [Tile1.stepSum_apply, Tile1.zero_apply, step_part]
      have et : tileOf ⟨m + 1, hn⟩ = ⟨0, hk⟩ := Fin.ext h0
      rw [et]
      rfl
    · obtain ⟨k', rfl⟩ : ∃ k', k = k' + 1 := ⟨k - 1, by omega⟩
      refine (congrFun (sum1_next V c ⟨m + 1, hn⟩ h0) (ix2 p q)).trans ?_
      rw [Tile1.stepSum_apply, step_part]
      have e := ih (Nat.lt_of_succ_lt hn) k' (by omega) (by omega) p q
      have er : rowOf ⟨m, Nat.lt_of_succ_lt hn⟩ p = rowOf ⟨m + 1, hn⟩ p := by
        apply Fin.ext; show 2048 * (m / 16) + p.val = 2048 * ((m + 1) / 16) + p.val; omega
      have et : tileOf ⟨m + 1, hn⟩ = ⟨k' + 1, hk⟩ := Fin.ext hnk
      rw [er] at e
      rw [et]
      show sum1 V c m _ (ix2 p q) + _ = _
      rw [e]
      rfl

/-! ## From the tiles to the array -/

/-- The bias as the layer takes it: a row indexed by the output column. -/
abbrev biasRow (c : Dev nD) : Spec.SH.Idx → EReal := fun i => biasArr V c (ix2 (0 : Fin 1) (i 0))

/-- The output tile a point with `k = 15` writes, at entry `(p, q)`: the layer at the tile's row. -/
theorem out_apply (c : Dev nD) (t : Fin cfg1.N) (h15 : t.val % 16 = 15) (p : Fin 2048) (q : Fin 128) :
    out1 V c t (ix2 p q)
      = Spec.layerAt (adjArr V c) (featArr V c) (wArr V c) (biasRow V c) (rowOf t p) q := by
  unfold out1
  rw [Tile1.outTile_apply, bT_apply, sum_inv V c t.val t.isLt 15 (by omega) h15 p q, Spec.runSum_last]
  rfl

/-- WHAT A FLUSHING POINT WRITES BACK is its block of the layer of the entry arrays. -/
theorem flushed_eq (c : Dev nD) (t : Fin cfg1.N) (hf : (cfg1.win 4).flush t = true) :
    (dat1 (F := Ideal) V c).flushed 4 t
      = ((cfg1.win 4).blk t).view.read (Elt Ideal)
          (Spec.layer (adjArr V c) (featArr V c) (wArr V c) (biasRow V c)) := by
  have h15 : t.val % 16 = 15 := (flush1_4 t).mp hf
  obtain ⟨-, -, -, -, -, -, -, -, e0, e1⟩ := idx_facts t
  show (cfg1.win 4).cut (grid1.coords t) ((dat1 (F := Ideal) V c).after 4 t) = _
  rw [after1_4]
  funext j
  obtain ⟨p, q, rfl⟩ : ∃ (p : Fin 2048) (q : Fin 128), j = ix2 p q := ⟨j 0, j 1, eq_ix2 j⟩
  rw [View.read_apply]
  show out1 V c t (ix2 p q)
    = Spec.layer (adjArr V c) (featArr V c) (wArr V c) (biasRow V c) (((cfg1.win 4).blk t).view.emb (ix2 p q))
  have hemb : ((cfg1.win 4).blk t).view.emb (ix2 p q) = ix2 (rowOf t p) q := by
    funext a
    apply Fin.ext
    match a with
    | ⟨0, _⟩ => show win1_4.index t (0 : Fin 2) * 2048 + 1 * p.val = 2048 * (t.val / 16) + p.val; omega
    | ⟨1, _⟩ => show win1_4.index t (1 : Fin 2) * 128 + 1 * q.val = q.val; omega
  rw [hemb, Spec.layer_apply]
  exact out_apply V c t h15 p q

/-- An index of the output array is in point `t`'s block iff each coordinate is in the block's range on its axis. -/
theorem mem_blk (t : Fin cfg1.N) (i : Spec.SNH.Idx) :
    i ∈ ((cfg1.win 4).blk t).view.set
      ↔ ∀ a : Fin 2, win1_4.index t a * S2048x128.size a ≤ (i a).val
          ∧ (i a).val < win1_4.index t a * S2048x128.size a + S2048x128.size a := by
  show i ∈ ((View.whole main_v3).slice (win1_4.rect t)).set ↔ _
  rw [View.set_slice_whole, Rect.mem_set_unit]
  exact Iff.rfl

/-- Every index of the output array lies in the block of a flushing point: row `r` in that of `16 (r / 2048) + 15`. -/
theorem cover (i : Spec.SNH.Idx) :
    ∃ t : Fin cfg1.N, (cfg1.win 4).flush t = true ∧ i ∈ ((cfg1.win 4).blk t).view.set := by
  have hi0 : (i 0).val < 16384 := (i 0).isLt
  have hi1 : (i 1).val < 128 := (i 1).isLt
  have hN : cfg1.N = 128 := rfl
  have ht : 16 * ((i 0).val / 2048) + 15 < cfg1.N := by omega
  obtain ⟨-, -, -, -, -, -, -, -, e0, e1⟩ := idx_facts ⟨16 * ((i 0).val / 2048) + 15, ht⟩
  have e0' : win1_4.index ⟨16 * ((i 0).val / 2048) + 15, ht⟩ (0 : Fin 2) = (16 * ((i 0).val / 2048) + 15) / 16 := e0
  refine ⟨⟨16 * ((i 0).val / 2048) + 15, ht⟩, (flush1_4 _).mpr (by show (16 * ((i 0).val / 2048) + 15) % 16 = 15; omega), ?_⟩
  rw [mem_blk]
  intro a
  match a with
  | ⟨0, _⟩ =>
    show win1_4.index ⟨16 * ((i 0).val / 2048) + 15, ht⟩ (0 : Fin 2) * 2048 ≤ (i 0).val
      ∧ (i 0).val < win1_4.index ⟨16 * ((i 0).val / 2048) + 15, ht⟩ (0 : Fin 2) * 2048 + 2048
    omega
  | ⟨1, _⟩ =>
    show win1_4.index ⟨16 * ((i 0).val / 2048) + 15, ht⟩ (1 : Fin 2) * 128 ≤ (i 1).val
      ∧ (i 1).val < win1_4.index ⟨16 * ((i 0).val / 2048) + 15, ht⟩ (1 : Fin 2) * 128 + 128
    omega

/-- THE OUTPUT ARRAY after the region: the layer of the entry arrays. -/
theorem final (c : Dev nD) :
    (dat1 (F := Ideal) V c).arrAt 4 cfg1.N
      = Spec.layer (adjArr V c) (featArr V c) (wArr V c) (fun i => biasArr V c (ix2 (0 : Fin 1) (i 0))) :=
  (dat1 (F := Ideal) V c).arrAt_eq_of_cover 4
    (Spec.layer (adjArr V c) (featArr V c) (wArr V c) (biasRow V c))
    (fun t hf => flushed_eq V c t hf) cover

end Cert.KernelIdeal.Final1

end
-- ==== Proof.KernelIdeal.HostValue.lean ====
/-
  The host operations of the kernel's program read at an entry, over the extended reals: the bias vector reshaped
  to a row, and the linear head `H · W₃ + b₃` (the host's matrix product is the plain sum over the contraction
  position; the bias is broadcast along the rows).
-/
import proofs.«160318_j35888746725725_1_alg».proof.Proof.Gen.KernelIdeal.Launch
import proofs.«160318_j35888746725725_1_alg».proof.Proof.Spec
import proofs.«160318_j35888746725725_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostValue

open Idealize.ShloMosaic Idealize.ShloMosaic.ValueIdx Cert.KernelIdeal Cert.KernelIdeal.Gen

/-- The bias vector reshaped to a `[1, 128]` row reads the vector's entry. -/
theorem bias_row_apply (b : FVec Ideal S128 .f32) (q : Fin 128) :
    shapeCast (α := Ideal .f32) S1x128 b shapeCasts_S128_S1x128 (ix2 (0 : Fin 1) q) = b (ix1 q) :=
  shapeCast_a_1a_apply b shapeCasts_S128_S1x128 (0 : Fin 1) q

/-- The linear head's three host operations, as the specification's `head`. -/
theorem head_term_eq (H : FVec Ideal S16384x128 .f32) (W3 : FVec Ideal S128x2 .f32) (b3 : FVec Ideal S2 .f32) :
    addf (Host.dotGeneral (F := Ideal) dot_S16384x128_S128x2_S16384x2_1_0_0_1_n_n none H W3)
        (broadcastInDim S16384x2 ![0, 1] bcast_S1x2_S16384x2_0_1 (broadcastInDim S1x2 ![1] bcast_S2_S1x2_1 b3))
      = Spec.head H W3 b3 := by
  have e : dot_S16384x128_S128x2_S16384x2_1_0_0_1_n_n = DotDims.plain 16384 128 2 := rfl
  funext i
  obtain ⟨p, o, rfl⟩ : ∃ (p : Fin 16384) (o : Fin 2), i = ix2 p o := ⟨i 0, i 1, eq_ix2 i⟩
  rw [addf_apply]
  show FloatOps.dotGeneral dot_S16384x128_S128x2_S16384x2_1_0_0_1_n_n none .single H W3 (ix2 p o) + _
    = Spec.headAt H W3 b3 p o
  rw [e, Cert.Lib.PlainDot.dotGeneral_apply]
  unfold Spec.headAt
  refine congrArg ((∑ j : Fin 128, H (ix2 p j) * W3 (ix2 j o)) + ·) ?_
  -- the bias: broadcast down the rows of its one-row form, which reads the vector at the column
  refine (broadcastInDim_apply ![0, 1] bcast_S1x2_S16384x2_0_1 _ (ix2 p o) (ix2 (0 : Fin 1) o) ?_).trans ?_
  · intro a
    match a with
    | ⟨0, _⟩ => rfl
    | ⟨1, _⟩ => rfl
  · refine broadcastInDim_apply ![1] bcast_S2_S1x2_1 b3 (ix2 (0 : Fin 1) o) (ix1 o) ?_
    intro a
    match a with
    | ⟨0, _⟩ => rfl

end Cert.KernelIdeal.HostValue

end
-- ==== Proof.KernelIdeal.NetValue.lean ====
/-
  The kernel's program, over the extended reals, returns the two-layer network of its arguments: the fold of @main
  read at the result buffer.  The first region's output array is the first layer of the arguments (the first bias
  reshaped to a row), the second region's the second layer over it, and the last host stretch the linear head.
-/
import proofs.«160318_j35888746725725_1_alg».proof.Proof.KernelIdeal.Run
import proofs.«160318_j35888746725725_1_alg».proof.Proof.KernelIdeal.Final0
import proofs.«160318_j35888746725725_1_alg».proof.Proof.KernelIdeal.Final1
import proofs.«160318_j35888746725725_1_alg».proof.Proof.KernelIdeal.HostValue
import proofs.«160318_j35888746725725_1_alg».proof.Proof.Spec
import Idealize.ShloMosaic.Lib.StableHlo.Run

set_option maxRecDepth 16384

noncomputable section

namespace Cert.KernelIdeal.NetValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ### The launch contents walked forward to the first region's entry -/

/-- The first region's adjacency array is the launch's. -/
theorem E1_adj (c : Dev nD) : Final0.adjArr (E1 m) c = m ((c.tc : Thread nD τ).loc main_arg1) :=
  calc W1 m c (Proc.devRef .tc main_arg1)
    _ = W0 m c (Proc.devRef .tc main_arg1) := StableHlo.after_of_writes_sub hostOps0 (W0 m c) hostOps0_writes (r := main_arg1) (by decide)
    _ = m ((c.tc : Thread nD τ).loc main_arg1) := rfl

/-- The first region's feature array is the launch's. -/
theorem E1_feat (c : Dev nD) : Final0.featArr (E1 m) c = m ((c.tc : Thread nD τ).loc main_arg0) :=
  calc W1 m c (Proc.devRef .tc main_arg0)
    _ = W0 m c (Proc.devRef .tc main_arg0) := StableHlo.after_of_writes_sub hostOps0 (W0 m c) hostOps0_writes (r := main_arg0) (by decide)
    _ = m ((c.tc : Thread nD τ).loc main_arg0) := rfl

/-- The first region's weight array is the launch's. -/
theorem E1_w (c : Dev nD) : Final0.wArr (E1 m) c = m ((c.tc : Thread nD τ).loc main_arg2) :=
  calc W1 m c (Proc.devRef .tc main_arg2)
    _ = W0 m c (Proc.devRef .tc main_arg2) := StableHlo.after_of_writes_sub hostOps0 (W0 m c) hostOps0_writes (r := main_arg2) (by decide)
    _ = m ((c.tc : Thread nD τ).loc main_arg2) := rfl

/-- The first region's bias row is the first bias vector reshaped to one row. -/
theorem E1_biasArr (c : Dev nD) :
    Final0.biasArr (E1 m) c
      = shapeCast (α := Ideal .f32) S1x128 (m ((c.tc : Thread nD τ).loc main_arg3) : FVec Ideal S128 .f32) shapeCasts_S128_S1x128 := by
  show StableHlo.after hostOps0 (W0 m c) (Proc.devRef .tc main_v0) = _
  after_results
  rfl

/-- Read along its one row, the first region's bias row is the first bias vector. -/
theorem E1_bias (c : Dev nD) :
    (fun i : Spec.SH.Idx => Final0.biasArr (E1 m) c (ix2 (0 : Fin 1) (i 0))) = m ((c.tc : Thread nD τ).loc main_arg3) := by
  funext i
  obtain ⟨q, rfl⟩ : ∃ q : Fin 128, i = ix1 q := ⟨i 0, eq_ix1 i⟩
  show Final0.biasArr (E1 m) c (ix2 (0 : Fin 1) q) = _
  rw [E1_biasArr m c]
  exact HostValue.bias_row_apply _ q

/-- THE FIRST LAYER: what the first region leaves in its output array. -/
theorem W2_v1 (c : Dev nD) :
    W2 m c (Proc.devRef .tc main_v1)
      = Spec.layer (m ((c.tc : Thread nD τ).loc main_arg1)) (m ((c.tc : Thread nD τ).loc main_arg0)) (m ((c.tc : Thread nD τ).loc main_arg2))
          (m ((c.tc : Thread nD τ).loc main_arg3)) :=
  calc W2 m c (Proc.devRef .tc main_v1)
    _ = (dat0 (E1 m) c).arrAt 4 cfg0.N := W2_arr m c 4
    _ = Spec.layer (Final0.adjArr (E1 m) c) (Final0.featArr (E1 m) c) (Final0.wArr (E1 m) c)
          (fun i => Final0.biasArr (E1 m) c (ix2 (0 : Fin 1) (i 0))) := Final0.final (E1 m) c
    _ = _ := by rw [E1_adj m c, E1_feat m c, E1_w m c, E1_bias m c]

/-! ### … and on to the second region's entry -/

/-- The second region's adjacency array is the launch's. -/
theorem E3_adj (c : Dev nD) : Final1.adjArr (E3 m) c = m ((c.tc : Thread nD τ).loc main_arg1) :=
  calc W3 m c (Proc.devRef .tc main_arg1)
    _ = W2 m c (Proc.devRef .tc main_arg1) := StableHlo.after_of_writes_sub hostOps1 (W2 m c) hostOps1_writes (r := main_arg1) (by decide)
    _ = W1 m c (Proc.devRef .tc main_arg1) := W2_input m c 0 rfl
    _ = W0 m c (Proc.devRef .tc main_arg1) := StableHlo.after_of_writes_sub hostOps0 (W0 m c) hostOps0_writes (r := main_arg1) (by decide)
    _ = m ((c.tc : Thread nD τ).loc main_arg1) := rfl

/-- The second region's feature array is the first layer. -/
theorem E3_feat (c : Dev nD) :
    Final1.featArr (E3 m) c
      = Spec.layer (m ((c.tc : Thread nD τ).loc main_arg1)) (m ((c.tc : Thread nD τ).loc main_arg0)) (m ((c.tc : Thread nD τ).loc main_arg2))
          (m ((c.tc : Thread nD τ).loc main_arg3)) :=
  calc W3 m c (Proc.devRef .tc main_v1)
    _ = W2 m c (Proc.devRef .tc main_v1) := StableHlo.after_of_writes_sub hostOps1 (W2 m c) hostOps1_writes (r := main_v1) (by decide)
    _ = _ := W2_v1 m c

/-- The second region's weight array is the launch's. -/
theorem E3_w (c : Dev nD) : Final1.wArr (E3 m) c = m ((c.tc : Thread nD τ).loc main_arg4) :=
  calc W3 m c (Proc.devRef .tc main_arg4)
    _ = W2 m c (Proc.devRef .tc main_arg4) := StableHlo.after_of_writes_sub hostOps1 (W2 m c) hostOps1_writes (r := main_arg4) (by decide)
    _ = W1 m c (Proc.devRef .tc main_arg4) := W2_of_ne m c main_arg4 (by decide)
    _ = W0 m c (Proc.devRef .tc main_arg4) := StableHlo.after_of_writes_sub hostOps0 (W0 m c) hostOps0_writes (r := main_arg4) (by decide)
    _ = m ((c.tc : Thread nD τ).loc main_arg4) := rfl

/-- The second bias vector is untouched up to the second reshape. -/
theorem W2_arg5 (c : Dev nD) : W2 m c (Proc.devRef .tc main_arg5) = m ((c.tc : Thread nD τ).loc main_arg5) :=
  calc W2 m c (Proc.devRef .tc main_arg5)
    _ = W1 m c (Proc.devRef .tc main_arg5) := W2_of_ne m c main_arg5 (by decide)
    _ = W0 m c (Proc.devRef .tc main_arg5) := StableHlo.after_of_writes_sub hostOps0 (W0 m c) hostOps0_writes (r := main_arg5) (by decide)
    _ = m ((c.tc : Thread nD τ).loc main_arg5) := rfl

/-- The second region's bias row is the second bias vector reshaped to one row. -/
theorem E3_biasArr (c : Dev nD) :
    Final1.biasArr (E3 m) c
      = shapeCast (α := Ideal .f32) S1x128 (m ((c.tc : Thread nD τ).loc main_arg5) : FVec Ideal S128 .f32) shapeCasts_S128_S1x128 := by
  rw [← W2_arg5 m c]
  show StableHlo.after hostOps1 (W2 m c) (Proc.devRef .tc main_v2) = _
  after_results
  rfl

/-- Read along its one row, the second region's bias row is the second bias vector. -/
theorem E3_bias (c : Dev nD) :
    (fun i : Spec.SH.Idx => Final1.biasArr (E3 m) c (ix2 (0 : Fin 1) (i 0))) = m ((c.tc : Thread nD τ).loc main_arg5) := by
  funext i
  obtain ⟨q, rfl⟩ : ∃ q : Fin 128, i = ix1 q := ⟨i 0, eq_ix1 i⟩
  show Final1.biasArr (E3 m) c (ix2 (0 : Fin 1) q) = _
  rw [E3_biasArr m c]
  exact HostValue.bias_row_apply _ q

/-- THE SECOND LAYER: what the second region leaves in its output array. -/
theorem W4_v3 (c : Dev nD) :
    W4 m c (Proc.devRef .tc main_v3)
      = Spec.layer (m ((c.tc : Thread nD τ).loc main_arg1))
          (Spec.layer (m ((c.tc : Thread nD τ).loc main_arg1)) (m ((c.tc : Thread nD τ).loc main_arg0)) (m ((c.tc : Thread nD τ).loc main_arg2))
            (m ((c.tc : Thread nD τ).loc main_arg3)))
          (m ((c.tc : Thread nD τ).loc main_arg4)) (m ((c.tc : Thread nD τ).loc main_arg5)) :=
  calc W4 m c (Proc.devRef .tc main_v3)
    _ = (dat1 (E3 m) c).arrAt 4 cfg1.N := W4_arr m c 4
    _ = Spec.layer (Final1.adjArr (E3 m) c) (Final1.featArr (E3 m) c) (Final1.wArr (E3 m) c)
          (fun i => Final1.biasArr (E3 m) c (ix2 (0 : Fin 1) (i 0))) := Final1.final (E3 m) c
    _ = _ := by rw [E3_adj m c, E3_feat m c, E3_w m c, E3_bias m c]

/-! ### The head's weights and bias at the last host stretch -/

/-- The head's weights are untouched up to the last host stretch. -/
theorem W4_arg6 (c : Dev nD) : W4 m c (Proc.devRef .tc main_arg6) = m ((c.tc : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 (W2 m c) hostOps1_writes (r := main_arg6) (by decide)
    _ = W1 m c (Proc.devRef .tc main_arg6) := W2_of_ne m c main_arg6 (by decide)
    _ = W0 m c (Proc.devRef .tc main_arg6) := StableHlo.after_of_writes_sub hostOps0 (W0 m c) hostOps0_writes (r := main_arg6) (by decide)
    _ = m ((c.tc : Thread nD τ).loc main_arg6) := rfl

/-- The head's bias is untouched up to the last host stretch. -/
theorem W4_arg7 (c : Dev nD) : W4 m c (Proc.devRef .tc main_arg7) = m ((c.tc : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 (W2 m c) hostOps1_writes (r := main_arg7) (by decide)
    _ = W1 m c (Proc.devRef .tc main_arg7) := W2_of_ne m c main_arg7 (by decide)
    _ = W0 m c (Proc.devRef .tc main_arg7) := StableHlo.after_of_writes_sub hostOps0 (W0 m c) hostOps0_writes (r := main_arg7) (by decide)
    _ = m ((c.tc : Thread nD τ).loc main_arg7) := rfl

/-- The last host stretch writes the result buffer with the linear head of what the second region left. -/
theorem W5_v7 (c : Dev nD) :
    W5 m c (Proc.devRef .tc main_v7)
      = addf (Host.dotGeneral (F := Ideal) (φ₁ := .f32) (φ₂ := .f32) dot_S16384x128_S128x2_S16384x2_1_0_0_1_n_n none
            (W4 m c (Proc.devRef .tc main_v3) : FVec Ideal S16384x128 .f32) (W4 m c (Proc.devRef .tc main_arg6) : FVec Ideal S128x2 .f32))
          (broadcastInDim S16384x2 ![0, 1] bcast_S1x2_S16384x2_0_1
            (broadcastInDim S1x2 ![1] bcast_S2_S1x2_1 (W4 m c (Proc.devRef .tc main_arg7) : FVec Ideal S2 .f32))) := by
  show StableHlo.after hostOps2 (W4 m c) (Proc.devRef .tc main_v7) = _
  after_results

/-- THE RESULT: at the return the result buffer holds the network of the launch contents of the arguments. -/
theorem result_eq (c : Dev nD) :
    W5 (F := Ideal) m c (Proc.devRef .tc main_v7)
      = Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [W5_v7 m c, W4_v3 m c, W4_arg6 m c, W4_arg7 m c, HostValue.head_term_eq]
  rfl

end Cert.KernelIdeal.NetValue

end
-- ==== Proof.RefValue.lean ====
/-
  The reference program's result over the extended reals: the two-layer network of its arguments,
  `head (layer adj (layer adj x w1 b1) w2 b2) w3 b3`, entry by entry — each host matrix product the plain sum over
  its contraction position, each bias broadcast along the rows, each `relu` the maximum with zero.
-/
import proofs.«160318_j35888746725725_1_alg».proof.Defs
import proofs.«160318_j35888746725725_1_alg».proof.Proof.Gen.ReferenceIdeal.Run
import proofs.«160318_j35888746725725_1_alg».proof.Proof.Gen.ReferenceIdeal.Read
import proofs.«160318_j35888746725725_1_alg».proof.Proof.Spec
import proofs.«160318_j35888746725725_1_alg».proof.Proof.LibPlainDot

noncomputable section

namespace Cert.ReferenceIdeal.RefValue

open Idealize.ShloMosaic Idealize.ShloMosaic.TcCoe Idealize.ShloMosaic.ValueIdx Idealize.SL.Sem
open Cert.ReferenceIdeal Cert.ReferenceIdeal.Gen

open Cert.ReferenceIdeal.Read

/-! ### Where each operation reads its operands, at explicit coordinates -/

/-- Entry `(p, q)` of `A · Y` reads `A` at `(p, k)`. -/
theorem lidx_v1 (p : Fin 16384) (q : Fin 128) (k : Fin 16384) : lidx_main_v1 (ix2 p q) k = ix2 p k :=
  funext fun a => Fin.ext (by match a with | ⟨0, _⟩ => rfl | ⟨1, _⟩ => rfl)
/-- Entry `(p, q)` of `A · Y` reads `Y` at `(k, q)`. -/
theorem ridx_v1 (p : Fin 16384) (q : Fin 128) (k : Fin 16384) : ridx_main_v1 (ix2 p q) k = ix2 k q :=
  funext fun a => Fin.ext (by match a with | ⟨0, _⟩ => rfl | ⟨1, _⟩ => rfl)
/-- Entry `(k, q)` of `X · W` reads `X` at `(k, j)`. -/
theorem lidx_v0 (k : Fin 16384) (q : Fin 128) (j : Fin 128) : lidx_main_v0 (ix2 k q) j = ix2 k j :=
  funext fun a => Fin.ext (by match a with | ⟨0, _⟩ => rfl | ⟨1, _⟩ => rfl)
/-- Entry `(k, q)` of `X · W` reads `W` at `(j, q)`. -/
theorem ridx_v0 (k : Fin 16384) (q : Fin 128) (j : Fin 128) : ridx_main_v0 (ix2 k q) j = ix2 j q :=
  funext fun a => Fin.ext (by match a with | ⟨0, _⟩ => rfl | ⟨1, _⟩ => rfl)
/-- The bias broadcast along the rows reads the bias at the column. -/
theorem idx_v3 (p : Fin 16384) (q : Fin 128) : idx_main_v2 (idx_main_v3 (ix2 p q)) = ix1 q :=
  funext fun a => Fin.ext (by match a with | ⟨0, _⟩ => rfl)

/-- The first layer's array at entry `(p, q)`. -/
theorem v5_at (x0 : (⟨S16384x128, .f32⟩ : BufTy).Contents (Elt Ideal)) (x1 : (⟨S16384x16384, .f32⟩ : BufTy).Contents (Elt Ideal))
    (x2 : (⟨S128x128, .f32⟩ : BufTy).Contents (Elt Ideal)) (x3 : (⟨S128, .f32⟩ : BufTy).Contents (Elt Ideal)) (p : Fin 16384) (q : Fin 128) :
    val_main_v5 (F := Ideal) x0 x1 x2 x3 (ix2 p q) = Spec.layerAt x1 x0 x2 x3 p q := by
  rw [val_main_v5_apply, val_main_v4_apply, val_main_v1_apply, val_main_v3_apply, val_main_v2_apply, val_main_call0_v0_apply,
    val_main_call0_cst_apply]
  simp only [val_main_v0_apply, lidx_v1, ridx_v1, lidx_v0, ridx_v0, idx_v3, Ideal.addf_def, Ideal.maximumf_def, Ideal.ofBits_def,
    Ideal.ofBits_zero_f32]
  rfl

/-- The first layer's array is the specification's layer of the arguments. -/
theorem v5_eq (x0 : (⟨S16384x128, .f32⟩ : BufTy).Contents (Elt Ideal)) (x1 : (⟨S16384x16384, .f32⟩ : BufTy).Contents (Elt Ideal))
    (x2 : (⟨S128x128, .f32⟩ : BufTy).Contents (Elt Ideal)) (x3 : (⟨S128, .f32⟩ : BufTy).Contents (Elt Ideal)) :
    val_main_v5 (F := Ideal) x0 x1 x2 x3 = Spec.layer x1 x0 x2 x3 := by
  funext i
  obtain ⟨p, q, rfl⟩ : ∃ (p : Fin 16384) (q : Fin 128), i = ix2 p q := ⟨i 0, i 1, eq_ix2 i⟩
  exact v5_at x0 x1 x2 x3 p q

/-- Entry `(p, q)` of `A · Y` reads `A` at `(p, k)` (second layer). -/
theorem lidx_v7 (p : Fin 16384) (q : Fin 128) (k : Fin 16384) : lidx_main_v7 (ix2 p q) k = ix2 p k :=
  funext fun a => Fin.ext (by match a with | ⟨0, _⟩ => rfl | ⟨1, _⟩ => rfl)
/-- Entry `(p, q)` of `A · Y` reads `Y` at `(k, q)` (second layer). -/
theorem ridx_v7 (p : Fin 16384) (q : Fin 128) (k : Fin 16384) : ridx_main_v7 (ix2 p q) k = ix2 k q :=
  funext fun a => Fin.ext (by match a with | ⟨0, _⟩ => rfl | ⟨1, _⟩ => rfl)
/-- Entry `(k, q)` of `H · W` reads `H` at `(k, j)` (second layer). -/
theorem lidx_v6 (k : Fin 16384) (q : Fin 128) (j : Fin 128) : lidx_main_v6 (ix2 k q) j = ix2 k j :=
  funext fun a => Fin.ext (by match a with | ⟨0, _⟩ => rfl | ⟨1, _⟩ => rfl)
/-- Entry `(k, q)` of `H · W` reads `W` at `(j, q)` (second layer). -/
theorem ridx_v6 (k : Fin 16384) (q : Fin 128) (j : Fin 128) : ridx_main_v6 (ix2 k q) j = ix2 j q :=
  funext fun a => Fin.ext (by match a with | ⟨0, _⟩ => rfl | ⟨1, _⟩ => rfl)
/-- The second bias broadcast along the rows reads the bias at the column. -/
theorem idx_v9 (p : Fin 16384) (q : Fin 128) : idx_main_v8 (idx_main_v9 (ix2 p q)) = ix1 q :=
  funext fun a => Fin.ext (by match a with | ⟨0, _⟩ => rfl)

/-- The second layer's array at entry `(p, q)`: the layer of the first layer's array. -/
theorem v11_at (x0 : (⟨S16384x128, .f32⟩ : BufTy).Contents (Elt Ideal)) (x1 : (⟨S16384x16384, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (p : Fin 16384) (q : Fin 128) :
    val_main_v11 (F := Ideal) x0 x1 x2 x3 x4 x5 (ix2 p q) = Spec.layerAt x1 (Spec.layer x1 x0 x2 x3) x4 x5 p q := by
  rw [val_main_v11_apply, val_main_v10_apply, val_main_v7_apply, val_main_v9_apply, val_main_v8_apply, val_main_call1_v0_apply,
    val_main_call1_cst_apply]
  simp only [val_main_v6_apply, v5_eq, lidx_v7, ridx_v7, lidx_v6, ridx_v6, idx_v9, Ideal.addf_def, Ideal.maximumf_def, Ideal.ofBits_def,
    Ideal.ofBits_zero_f32]
  rfl

/-- The second layer's array is the specification's layer of the first layer. -/
theorem v11_eq (x0 : (⟨S16384x128, .f32⟩ : BufTy).Contents (Elt Ideal)) (x1 : (⟨S16384x16384, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v11 (F := Ideal) x0 x1 x2 x3 x4 x5 = Spec.layer x1 (Spec.layer x1 x0 x2 x3) x4 x5 := by
  funext i
  obtain ⟨p, q, rfl⟩ : ∃ (p : Fin 16384) (q : Fin 128), i = ix2 p q := ⟨i 0, i 1, eq_ix2 i⟩
  exact v11_at x0 x1 x2 x3 x4 x5 p q

/-- Entry `(p, o)` of the head's product reads the hidden array at `(p, j)`. -/
theorem lidx_v12 (p : Fin 16384) (o : Fin 2) (j : Fin 128) : lidx_main_v12 (ix2 p o) j = ix2 p j :=
  funext fun a => Fin.ext (by match a with | ⟨0, _⟩ => rfl | ⟨1, _⟩ => rfl)
/-- Entry `(p, o)` of the head's product reads the head's weights at `(j, o)`. -/
theorem ridx_v12 (p : Fin 16384) (o : Fin 2) (j : Fin 128) : ridx_main_v12 (ix2 p o) j = ix2 j o :=
  funext fun a => Fin.ext (by match a with | ⟨0, _⟩ => rfl | ⟨1, _⟩ => rfl)
/-- The head's bias broadcast along the rows reads the bias at the column. -/
theorem idx_v14 (p : Fin 16384) (o : Fin 2) : idx_main_v13 (idx_main_v14 (ix2 p o)) = ix1 o :=
  funext fun a => Fin.ext (by match a with | ⟨0, _⟩ => rfl)

/-- The result array at entry `(p, o)`: the linear head of the second layer. -/
theorem v15_at (x0 : (⟨S16384x128, .f32⟩ : BufTy).Contents (Elt Ideal)) (x1 : (⟨S16384x16384, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x2, .f32⟩ : BufTy).Contents (Elt Ideal)) (x7 : (⟨S2, .f32⟩ : BufTy).Contents (Elt Ideal)) (p : Fin 16384) (o : Fin 2) :
    val_main_v15 (F := Ideal) x0 x1 x2 x3 x4 x5 x6 x7 (ix2 p o)
      = Spec.headAt (Spec.layer x1 (Spec.layer x1 x0 x2 x3) x4 x5) x6 x7 p o := by
  rw [val_main_v15_apply, val_main_v12_apply, val_main_v14_apply, val_main_v13_apply]
  simp only [v11_eq, lidx_v12, ridx_v12, idx_v14, Ideal.addf_def]
  rfl

/-- The result array is the network of the eight arguments. -/
theorem v15_eq (x0 : (⟨S16384x128, .f32⟩ : BufTy).Contents (Elt Ideal)) (x1 : (⟨S16384x16384, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x2, .f32⟩ : BufTy).Contents (Elt Ideal)) (x7 : (⟨S2, .f32⟩ : BufTy).Contents (Elt Ideal)) :
    val_main_v15 (F := Ideal) x0 x1 x2 x3 x4 x5 x6 x7 = Spec.net x0 x1 x2 x3 x4 x5 x6 x7 := by
  funext i
  obtain ⟨p, o, rfl⟩ : ∃ (p : Fin 16384) (o : Fin 2), i = ix2 p o := ⟨i 0, i 1, eq_ix2 i⟩
  exact v15_at x0 x1 x2 x3 x4 x5 x6 x7 p o

/-- The reference's run, its result named by the specification: every weakly fair execution terminates with the
    result array at the network of the argument arrays, the arguments unchanged. -/
theorem run_net (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15)
        = Spec.net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans ((val_main_v15_eq (F := Ideal) _ _ _ _ _ _ _ _).trans (v15_eq _ _ _ _ _ _ _ _)), (h c).2⟩)
    (Value.run (F := Ideal) m ρ)

end Cert.ReferenceIdeal.RefValue

end
-- ==== Proof.lean ====
/-
  A two-layer graph network: `relu (A · (X · W₁) + b₁)`, `relu (A · (H · W₂) + b₂)`, then a linear head.

  The kernel computes each layer in one pallas_call over an 8 × 16 grid: at point `(i, k)` it adds
  `A[i, k] · (X[k] · W)` to a running sum kept in scratch, restarting the sum at `k = 0` and writing
  `max (sum + b, 0)` to row tile `i` of the output at `k = 15`; the head is plain host arithmetic.  The reference
  computes the same with whole-array matrix products.  Over the extended reals a change of float format is the
  identity and every product is the plain sum over its contraction position, so the two agree entry by entry once
  the sum over the 16384 contraction positions is taken tile by tile — which needs only that addition is
  associative and commutative; no input need be finite.

  The frames: each program terminates from any memory with zero counters, faults nowhere and leaves its arguments
  as launched — for the kernel's two programs by following every unscoped buffer through host stretch, region, host
  stretch, region, host stretch; for the reference by its run with the result dropped.
-/
import proofs.«160318_j35888746725725_1_alg».proof.Defs
import proofs.«160318_j35888746725725_1_alg».proof.Proof.Gen.Kernel
import proofs.«160318_j35888746725725_1_alg».proof.Proof.Gen.KernelIdeal
import proofs.«160318_j35888746725725_1_alg».proof.Proof.Gen.ReferenceIdeal
import proofs.«160318_j35888746725725_1_alg».proof.Proof.Gen.Pre_finite_inputs
import proofs.«160318_j35888746725725_1_alg».proof.Proof.Gen.ReferenceIdeal.Run
import proofs.«160318_j35888746725725_1_alg».proof.Proof.Kernel.Args
import proofs.«160318_j35888746725725_1_alg».proof.Proof.KernelIdeal.Args
import proofs.«160318_j35888746725725_1_alg».proof.Proof.KernelIdeal.NetValue
import proofs.«160318_j35888746725725_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel's run with its result named: the network of the launch contents of the arguments. -/
theorem kernel_run_net (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v7)
          = Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun _ h c =>
    ⟨(h c _ (Cert.KernelIdeal.Gen.mem_uc Cert.KernelIdeal.main_v7 (by decide))).trans (Cert.KernelIdeal.NetValue.result_eq m c),
     (h c _ (Cert.KernelIdeal.Gen.mem_uc Cert.KernelIdeal.main_arg0 (by decide))).trans (Cert.KernelIdeal.Gen.W5_main_arg0 m c),
     (h c _ (Cert.KernelIdeal.Gen.mem_uc Cert.KernelIdeal.main_arg1 (by decide))).trans (Cert.KernelIdeal.Gen.W5_main_arg1 m c),
     (h c _ (Cert.KernelIdeal.Gen.mem_uc Cert.KernelIdeal.main_arg2 (by decide))).trans (Cert.KernelIdeal.Gen.W5_main_arg2 m c),
     (h c _ (Cert.KernelIdeal.Gen.mem_uc Cert.KernelIdeal.main_arg3 (by decide))).trans (Cert.KernelIdeal.Gen.W5_main_arg3 m c),
     (h c _ (Cert.KernelIdeal.Gen.mem_uc Cert.KernelIdeal.main_arg4 (by decide))).trans (Cert.KernelIdeal.Gen.W5_main_arg4 m c),
     (h c _ (Cert.KernelIdeal.Gen.mem_uc Cert.KernelIdeal.main_arg5 (by decide))).trans (Cert.KernelIdeal.Gen.W5_main_arg5 m c),
     (h c _ (Cert.KernelIdeal.Gen.mem_uc Cert.KernelIdeal.main_arg6 (by decide))).trans (Cert.KernelIdeal.Gen.W5_main_arg6 m c),
     (h c _ (Cert.KernelIdeal.Gen.mem_uc Cert.KernelIdeal.main_arg7 (by decide))).trans (Cert.KernelIdeal.Gen.W5_main_arg7 m c)⟩)
    (Cert.KernelIdeal.Gen.run_main m ρ)

/-- From memories agreeing on the arguments both idealized programs end with the network of those arguments. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), kernel_run_net m ρ, ?_⟩
  refine (θ_run Cert.ReferenceIdeal.defs _ _).mono (fun _ h c => ⟨(h c).1.trans ?_, (h c).2⟩)
    (Cert.ReferenceIdeal.RefValue.run_net m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
